-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S1x2048 .f32) (main_arg15 : FVec F S1x2048 .f32) (main_arg16 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  let main_v74 : FVec F S1x2048 .f32 := Host.absf main_arg15
  let main_cst_28 : FVec F S_ .f32 := constant S_ .f32 0x7F800000#32
  let main_v75 : FVec F S1x2048 .f32 := broadcastInDim S1x2048 ![] bcast_S_S1x2048 main_cst_28
  let main_v76 : IVec S1x2048 1 := cmpf .olt main_v74 main_v75
  let main_c_29 : IVec S_ 1 := constantI S_ 1 1#1
  let main_v77 : IVec S_ 1 := (fun x v => Host.reduce IntOp.andi x v reducesTo_S1x2048_S_d0_1 h_S_) main_v76 main_c_29
  let main_v78 : IVec S_ 1 := andi main_v73 main_v77
  let main_v79 : FVec F S1x2048 .f32 := Host.absf main_arg16
  let main_cst_30 : FVec F S_ .f32 := constant S_ .f32 0x7F800000#32
  let main_v80 : FVec F S1x2048 .f32 := broadcastInDim S1x2048 ![] bcast_S_S1x2048 main_cst_30
  let main_v81 : IVec S1x2048 1 := cmpf .olt main_v79 main_v80
  let main_c_31 : IVec S_ 1 := constantI S_ 1 1#1
  let main_v82 : IVec S_ 1 := (fun x v => Host.reduce IntOp.andi x v reducesTo_S1x2048_S_d0_1 h_S_) main_v81 main_c_31
  let main_v83 : IVec S_ 1 := andi main_v78 main_v82
  main_v83

def fn_part3 {F : FTy → Type} [FloatOps F] (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x2048 .f32) (main_arg1 : FVec F S1x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 34
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S4096x2048, .bf16⟩
  | .hbm, ⟨18, _⟩ => ⟨S1x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | .local _ .vmem, ⟨32, _⟩ => ⟨S512x2048, .bf16⟩
  | .local _ .vmem, ⟨33, _⟩ => ⟨S512x2048, .f32⟩
  | .local _ .vmem, ⟨34, _⟩ => ⟨S512x2048, .f32⟩
  | .local _ .vmem, ⟨35, _⟩ => ⟨S1x2048, .f32⟩
  | .local _ .vmem, ⟨36, _⟩ => ⟨S1x512, .f32⟩
  | .local _ .vmem, ⟨37, _⟩ => ⟨S1x512, .f32⟩
  | .local _ .vmem, ⟨38, _⟩ => ⟨S512x512, .f32⟩
  | .local _ .vmem, ⟨39, _⟩ => ⟨S512x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S512x512, .f32⟩
  | .local _ .vmem, ⟨47, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34
abbrev cc1_sem4_0 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x2048_S512x2048 : S1x2048.Broadcasts S512x2048
  dot_S512x2048_S512x2048_S512x512_1_1_0_0_n_n_wf : DotDims.WF S512x2048 S512x2048 S512x512 [1] [1] [0] [0] [] []
  dot_S1x2048_S512x2048_S1x512_1_1_0_0_n_n_wf : DotDims.WF S1x2048 S512x2048 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .bf16 = 32 ∨ (Rect.block (s := S2048x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S2048x2048.size a
  hwx0_4 : ∀ i : grid0.Coords, EltTy.bits .bf16 = 32 ∨ (Rect.block (s := S2048x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .bf16 = 32 ∨ (Rect.block (s := S1x2048) S1x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x2048.size a
  hwx0_10 : ∀ i : grid0.Coords, EltTy.bits .f32 = 32 ∨ (Rect.block (s := S1x2048) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x2048.size a
  hwx0_12 : ∀ i : grid0.Coords, EltTy.bits .f32 = 32 ∨ (Rect.block (s := S4096x2048) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S4096x2048.size a
  hwx0_13 : ∀ i : grid0.Coords, EltTy.bits .f32 = 32 ∨ (Rect.block (s := S4096x2048) S512x512.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S2048x2048.size a
  hwx1_2 : ∀ i : grid1.Coords, EltTy.bits .bf16 = 32 ∨ (Rect.block (s := S2048x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .f32 = 32 ∨ (Rect.block (s := S4096x2048) S512x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x2048.size a
  hwx1_5 : ∀ i : grid1.Coords, EltTy.bits .f32 = 32 ∨ (Rect.block (s := S1x2048) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x2048.size a
  hwx1_6 : ∀ i : grid1.Coords, EltTy.bits .f32 = 32 ∨ (Rect.block (s := S4096x2048) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x2048.size a
  hwx1_7 : ∀ i : grid1.Coords, EltTy.bits .f32 = 32 ∨ (Rect.block (s := S1x2048) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x2048.size a
  hwx1_8 : ∀ i : grid1.Coords, EltTy.bits .f32 = 32 ∨ (Rect.block (s := S1x2048) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x2048.size a
  hwx1_9 : ∀ i : grid1.Coords, EltTy.bits .f32 = 32 ∨ (Rect.block (s := S1x2048) S1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S4096x2048.size a
  hwx1_10 : ∀ i : grid1.Coords, EltTy.bits .f32 = 32 ∨ (Rect.block (s := S4096x2048) S512x512.size (cc1_transform_10 i) (hinb1_10 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_0) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_1) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S512x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S1x512.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15) S512x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S2048x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S2048x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S2048x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S2048x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S2048x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S2048x2048, .f32⟩
  | .hbm, ⟨69, _⟩ => ⟨S4096x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []
  dot_S1x2048_S2048x2048_S1x2048_1_0_0_1_n_n_wf : DotDims.WF S1x2048 S2048x2048 S1x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

class Facts : Prop extends Facts₀ where

variable [Facts]
-- ==== Proof.K.Data0.lean ====
/- Region 0 of the gate kernel: the update gate z and the reset gate r, one 512x512 tile of each per grid point.
   At a grid point (i, j) the body reads the row block i of x, the row blocks j of Wz, Wr, Uz, Ur, the whole of h
   and the column blocks j of the six bias rows, and writes
     z-tile = logistic(x·Wzᵀ + bwz + h·Uzᵀ + buz + b_z),   r-tile = logistic(x·Wrᵀ + bwr + h·Urᵀ + bur + b_r).
   This module names those two tiles as functions of the twelve input blocks, and the pipeline's proof data over
   them at any contents V of the core's buffers on entry. -/
import proofs.«123994_j5050881540410_1_alg».proof.Proof.Gen.Kernel.Launch
import proofs.«123994_j5050881540410_1_alg».proof.Proof.Gen.Kernel.Skeleton
import proofs.«123994_j5050881540410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at grid point t, read off its array at the entry contents V. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 512x2048 block, of the 1x2048 row, of a 1x512 bias block, of a 512x512 tile. -/
abbrev rM : Rect S512x2048 := Rect.unit (s := S512x2048) ![0, 0] S512x2048.size inb_S512x2048_S512x2048_0_0
abbrev rH : Rect S1x2048 := Rect.unit (s := S1x2048) ![0, 0] S1x2048.size inb_S1x2048_S1x2048_0_0
abbrev rB : Rect S1x512 := Rect.unit (s := S1x512) ![0, 0] S1x512.size inb_S1x512_S1x512_0_0
abbrev rT : Rect S512x512 := Rect.unit (s := S512x512) ![0, 0] S512x512.size inb_S512x512_S512x512_0_0

/-- The z tile from the blocks of x, Wz, Uz, h, bwz, buz, b_z: the one store of the update gate, as a canonical piece list. -/
def zblk (x wz uz : Vec F S512x2048 .bf16) (h : Vec F S1x2048 .bf16) (bwz buz bz : Vec F S1x512 .f32) : Vec F S512x512 .f32 :=
  View.canon [⟨rT, k0_pay1 (k0_pay5 (View.ld x rM) (View.ld h rH) (View.ld wz rM) (View.ld uz rM) (View.ld bwz rB) (View.ld buz rB) (View.ld bz rB))⟩]

/-- The r tile from the blocks of x, Wr, Ur, h, bwr, bur, b_r. -/
def rblk (x wr ur : Vec F S512x2048 .bf16) (h : Vec F S1x2048 .bf16) (bwr bur br : Vec F S1x512 .f32) : Vec F S512x512 .f32 :=
  View.canon [⟨rT, k0_pay2 (k0_pay6 (View.ld x rM) (View.ld wr rM) (View.ld bwr rB)) (k0_pay7 (View.ld h rH) (View.ld ur rM)) (View.ld bur rB) (View.ld br rB)⟩]

/-- One whole-tile store covers the tile. -/
theorem coverT (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-- The proof data of region 0 on core c at entry contents V: every input's buffer keeps its block, the two output
    buffers hold the z and r tiles of the input blocks; the class-A invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => zblk (iblk0 V c 0 t) (iblk0 V c 1 t) (iblk0 V c 3 t) (iblk0 V c 5 t) (iblk0 V c 6 t) (iblk0 V c 7 t) (iblk0 V c 10 t)
    | ⟨13, _⟩ => rblk (iblk0 V c 0 t) (iblk0 V c 2 t) (iblk0 V c 4 t) (iblk0 V c 5 t) (iblk0 V c 8 t) (iblk0 V c 9 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t
    = zblk (iblk0 V c 0 t) (iblk0 V c 1 t) (iblk0 V c 3 t) (iblk0 V c 5 t) (iblk0 V c 6 t) (iblk0 V c 7 t) (iblk0 V c 10 t) := by dsimp only [dat0]
theorem after0_13 (c : Dev nD) (t : Fin cfg0.N) : (dat0 V c).after 13 t
    = rblk (iblk0 V c 0 t) (iblk0 V c 2 t) (iblk0 V c 4 t) (iblk0 V c 5 t) (iblk0 V c 8 t) (iblk0 V c 9 t) (iblk0 V c 11 t) := by dsimp only [dat0]

end Cert.Kernel.Hand

end
-- ==== Proof.K.Data1.lean ====
/- Region 1 of the gate kernel: the candidate state and the blend, one 512x512 tile of the result per grid point.
   At a grid point (i, j) the body reads the row block i of x, the row blocks j of Wh and Uh, the row block i of r
   (all 2048 columns), the whole of h, the column block j of h, the tile (i, j) of z and the column blocks j of the
   three bias rows, and writes
     out-tile = (1 − z)·h + z·tanh(x·Whᵀ + bwh + (r·h)·Uhᵀ + buh + b_h).
   h reaches the body through two windows over one array (the whole row, and its column block j): each holds half
   of the array's share. This module names the tile as a function of the ten input blocks, and the pipeline's proof
   data over it at any contents V of the core's buffers on entry. -/
import proofs.«123994_j5050881540410_1_alg».proof.Proof.Gen.Kernel.Launch
import proofs.«123994_j5050881540410_1_alg».proof.Proof.Gen.Kernel.Skeleton
import proofs.«123994_j5050881540410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at grid point t, read off its array at the entry contents V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 512x2048 block, of the 1x2048 row, of a 1x512 block, of a 512x512 tile. -/
abbrev sM : Rect S512x2048 := Rect.unit (s := S512x2048) ![0, 0] S512x2048.size inb_S512x2048_S512x2048_0_0
abbrev sH : Rect S1x2048 := Rect.unit (s := S1x2048) ![0, 0] S1x2048.size inb_S1x2048_S1x2048_0_0
abbrev sB : Rect S1x512 := Rect.unit (s := S1x512) ![0, 0] S1x512.size inb_S1x512_S1x512_0_0
abbrev sT : Rect S512x512 := Rect.unit (s := S512x512) ![0, 0] S512x512.size inb_S512x512_S512x512_0_0

/-- The result tile from the blocks of x, Wh, Uh, r, h (whole), h (column block), z, bwh, buh, b_h. -/
def oblk (x wh uh : Vec F S512x2048 .bf16) (r : Vec F S512x2048 .f32) (hf : Vec F S1x2048 .f32) (ht : Vec F S1x512 .f32)
    (z : Vec F S512x512 .f32) (bwh buh bh : Vec F S1x512 .f32) : Vec F S512x512 .f32 :=
  View.canon [⟨sT, k1_pay1 (k1_pay3 (View.ld ht sB) (View.ld z sT))
    (k1_pay4 (View.ld x sM) (View.ld wh sM) (View.ld uh sM) (View.ld r sM) (View.ld hf sH) (View.ld z sT) (View.ld bwh sB) (View.ld buh sB) (View.ld bh sB))⟩]

/-- One whole-tile store covers the tile. -/
theorem coverT1 (p0 : Vec F S512x512 .f32) (y : S512x512.Idx) :
    ∃ pc ∈ ([⟨sT, p0⟩] : List (View.Piece (Elt F) S512x512 .f32)), y ∈ pc.1.set :=
  View.cover_of_tiled [⟨sT, p0⟩] S512x512.size (by rfl) y

/-- The share of its array each input window holds: the two windows over h hold one half each, every other
    window its whole array. -/
def q1 : Fin cfg1.W → PosShare TreeShare
  | ⟨0, _⟩ => fullShare
  | ⟨1, _⟩ => fullShare
  | ⟨2, _⟩ => fullShare
  | ⟨3, _⟩ => fullShare
  | ⟨4, _⟩ => fullShare.left
  | ⟨5, _⟩ => fullShare.right
  | ⟨6, _⟩ => fullShare
  | ⟨7, _⟩ => fullShare
  | ⟨8, _⟩ => fullShare
  | ⟨9, _⟩ => fullShare
  | ⟨10, _⟩ => fullShare

/-- The proof data of region 1 on core c at entry contents V: every input's buffer keeps its block, the output
    buffer holds the result tile of the input blocks; the class-A invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

end Cert.Kernel.Hand

end
-- ==== Proof.K.Shared1.lean ====
/- Region 1's arrays and the core's buffers. Ten distinct arrays stand behind the region's eleven windows: h is read
   through two of them. On entry the core's buffers at contents V split into the windows' arrays — h's buffer into two
   halves of its share, one per window — and the buffers no window reads; on exit the two halves, both still at h's
   contents, join again, and the one array the region writes holds what its write-backs left. -/
import proofs.«123994_j5050881540410_1_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The ten distinct buffers behind region 1's windows, one by one. -/
theorem arrBufs1_eq (c : Dev nD) (W : (b : Ref sig .tc) → Buf (Elt F) ((c : Thread nD τ).loc b)) :
    (Pipeline.arrBufs spec1 c W : sProp 𝕄)
      = iprop((((c : Thread nD τ).loc main_v0) ↦{fullShare} W main_v0) ∗ (((c : Thread nD τ).loc main_v4) ↦{fullShare} W main_v4) ∗ (((c : Thread nD τ).loc main_v7) ↦{fullShare} W main_v7) ∗ (((c : Thread nD τ).loc main_v14_1) ↦{fullShare} W main_v14_1) ∗ (((c : Thread nD τ).loc main_arg1) ↦{fullShare} W main_arg1) ∗ (((c : Thread nD τ).loc main_v14_0) ↦{fullShare} W main_v14_0) ∗ (((c : Thread nD τ).loc main_v12) ↦{fullShare} W main_v12) ∗ (((c : Thread nD τ).loc main_v13) ↦{fullShare} W main_v13) ∗ (((c : Thread nD τ).loc main_arg16) ↦{fullShare} W main_arg16) ∗ (((c : Thread nD τ).loc main_v15) ↦{fullShare} W main_v15)) := by
  unfold Pipeline.arrBufs
  exact bigSep_eq_bigSepL_of_eq [main_v0, main_v4, main_v7, main_v14_1, main_arg1, main_v14_0, main_v12, main_v13, main_arg16, main_v15] (by decide) (by decide) _

/-- Region 1's arrays at contents G, window by window: each whole, at the window's share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare} G 0) ∗ (((c : Thread nD τ).loc main_v4) ↦{fullShare} G 1) ∗ (((c : Thread nD τ).loc main_v7) ↦{fullShare} G 2) ∗ (((c : Thread nD τ).loc main_v14_1) ↦{fullShare} G 3) ∗ (((c : Thread nD τ).loc main_arg1) ↦{fullShare.left} G 4) ∗ (((c : Thread nD τ).loc main_arg1) ↦{fullShare.right} G 5) ∗ (((c : Thread nD τ).loc main_v14_0) ↦{fullShare} G 6) ∗ (((c : Thread nD τ).loc main_v12) ↦{fullShare} G 7) ∗ (((c : Thread nD τ).loc main_v13) ↦{fullShare} G 8) ∗ (((c : Thread nD τ).loc main_arg16) ↦{fullShare} G 9) ∗ (((c : Thread nD τ).loc main_v15) ↦{fullShare} G 10)) := by
  have h : ((dat1 V c).arrays G : sProp 𝕄)
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- The core's unscoped buffers at any contents: the ten buffers behind region 1's windows, and the rest. -/
theorem unscopedBufs1_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at V are region 1's arrays at the proof data's entry contents and the rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split c (V c)]
  refine sep_mono ?_ .rfl
  rw [arrBufs1_eq, arrays1_eq]
  iintro ⟨H0, H1, H2, H3, Hh, H6, H7, H8, H9, H10⟩
  ihave Hh := (pointsTo_share (PosShare.mem_left_op_right fullShare)).1 $$ Hh
  icases Hh with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: region 1's arrays at their final contents and the rest at V are the core's unscoped buffers at any V' that
    holds the result array's final contents and agrees with V elsewhere. -/
theorem exit1 (c : Dev nD) (V' : (b : Ref sig .tc) → Buf (Elt F) ((c : Thread nD τ).loc b))
    (hout : V' main_v15 = (dat1 V c).arrAt 10 cfg1.N) (hrest : ∀ b : Ref sig .tc, b ≠ main_v15 → V' b = V c b) :
    iprop((dat1 V c).arrays ((dat1 V c).arrAt · cfg1.N) ∗ Pipeline.unscopedRest spec1 c (V c)) ⊢ (unscopedBufs c V' : sProp 𝕄) := by
  -- an input's array is never written back, so it ends at its entry contents, where V' agrees with V
  have hin : ∀ w (hw : (cfg1.win w).isOut = false), Pipeline.arrRef spec1 w ≠ main_v15 →
      (dat1 V c).arrAt w cfg1.N = V' (Pipeline.arrRef spec1 w) := fun w hw hne =>
    (((dat1 V c).arrAt_in w hw _).trans (A_eq1 V c w)).trans (hrest _ hne).symm
  have hG : ∀ w, (dat1 V c).arrAt w cfg1.N = V' (Pipeline.arrRef spec1 w) := fun
    | 0 => hin 0 rfl (by decide) | 1 => hin 1 rfl (by decide) | 2 => hin 2 rfl (by decide) | 3 => hin 3 rfl (by decide)
    | 4 => hin 4 rfl (by decide) | 5 => hin 5 rfl (by decide) | 6 => hin 6 rfl (by decide) | 7 => hin 7 rfl (by decide)
    | 8 => hin 8 rfl (by decide) | 9 => hin 9 rfl (by decide) | 10 => hout.symm
    | ⟨_ + 11, h⟩ => absurd h (Nat.not_lt.2 (Nat.le_add_left _ _))
  rw [unscopedBufs1_split c V']
  refine sep_mono ((Entails.of_eq (congrArg (dat1 V c).arrays (funext hG))).trans ?_) (Entails.of_eq ?_)
  · rw [arrBufs1_eq, arrays1_eq]
    iintro ⟨H0, H1, H2, H3, H4, H5, H6, H7, H8, H9, H10⟩
    ihave Hh := (pointsTo_share (PosShare.mem_left_op_right fullShare)).2 $$ [H4 H5]
    · isplitl [H4] <;> iassumption
    isplitl [H0]; · iexact H0
    isplitl [H1]; · iexact H1
    isplitl [H2]; · iexact H2
    isplitl [H3]; · iexact H3
    isplitl [Hh]; · iexact Hh
    isplitl [H6]; · iexact H6
    isplitl [H7]; · iexact H7
    isplitl [H8]; · iexact H8
    isplitl [H9]; · iexact H9
    iexact H10
  · unfold Pipeline.unscopedRest
    exact bigSep_congr fun b hb => by
      rw [hrest b fun e => (Finset.mem_sdiff.mp hb).2 (e ▸ Finset.mem_image_of_mem (Pipeline.arrRef spec1) (Finset.mem_univ (10 : Fin 11)))]

end Cert.Kernel.Hand

end
-- ==== Proof.K.Run.lean ====
/- The whole run of the two-region program: the contents of the core's buffers at each boundary of @main — the launch
   memory, then what the fourteen host operations write, then region 0's two output arrays at what its write-backs
   leave, then region 1's output array likewise —, each region as a segment of @main between those contents, and the
   launch: every weakly fair execution terminates, faults nowhere, and ends with every unscoped buffer of every core
   at the last boundary's contents. From that, the arguments end as launched and the result array ends at what
   region 1's write-backs leave. -/
import proofs.«123994_j5050881540410_1_alg».proof.Proof.K.Data0
import proofs.«123994_j5050881540410_1_alg».proof.Proof.K.Data1
import proofs.«123994_j5050881540410_1_alg».proof.Proof.K.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: the result array at what the pipeline leaves, every other buffer as entered. -/
def W3 (c : Dev nD) : Valuation τ sig (Elt F) :=
  Function.update (W2 m c) (Proc.devRef .tc main_v15) ((dat1 (V2 m) c).arrAt 10 cfg1.N)
abbrev V3 : (c : Dev nD) → (b : Ref sig .tc) → Buf (Elt F) ((c : Thread nD τ).loc b) := fun c b => W3 m c b
theorem W3_out (c : Dev nD) : W3 m c (Proc.devRef .tc main_v15) = (dat1 (V2 m) c).arrAt 10 cfg1.N := by
  unfold W3; exact Function.update_self ..
theorem W3_of_ne (c : Dev nD) (b : Ref sig .tc) (hb : b ≠ main_v15) :
    W3 m c (Proc.devRef .tc b) = W2 m c (Proc.devRef .tc b) := by
  unfold W3; exact Function.update_of_ne (StableHlo.devRef_ne_of_ne hb) ..

/-- No host operation writes an argument, region 0 writes its two outputs only, region 1 its one. -/
theorem W1_of_not_written (c : Dev nD) (b : Ref sig .tc)
    (hb : b ∉ ([main_v0, main_v1, main_v2, main_v3, main_v4, main_v5, main_v6, main_v7, main_v8, main_v9, main_v10, main_v11, main_v12, main_v13] : List (Ref sig .tc))) :
    W1 m c (Proc.devRef .tc b) = m ((c : Thread nD τ).loc b) := by
  simp only [List.mem_cons, List.not_mem_nil, or_false, not_or] at hb
  obtain ⟨h0, h1, h2, h3, h4, h5, h6, h7, h8, h9, h10, h11, h12, h13⟩ := hb
  refine (StableHlo.after_of_forall_not_mem (b := Proc.devRef .tc b) hostOps0 (W0 m c) (List.forall_iff_forall_mem.mp ?_)).trans rfl
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

/-- A buffer that is no host operation's result, no array of region 0 and not the result array ends as launched. -/
theorem W3_of_plain (c : Dev nD) (b : Ref sig .tc) (h15 : b ≠ main_v15) (harr : ∀ w, Pipeline.arrRef spec0 w ≠ b)
    (hw : b ∉ ([main_v0, main_v1, main_v2, main_v3, main_v4, main_v5, main_v6, main_v7, main_v8, main_v9, main_v10, main_v11, main_v12, main_v13] : List (Ref sig .tc))) :
    W3 m c (Proc.devRef .tc b) = m ((c : Thread nD τ).loc b) :=
  (W3_of_ne m c b h15).trans ((W2_of_ne m c b harr).trans (W1_of_not_written m c b hw))

/-- An input array of region 0 that no host operation writes ends as launched: an input array is never written. -/
theorem W3_of_input0 (c : Dev nD) (w : Fin cfg0.W) (hin : (cfg0.win w).isOut = false) (h15 : Pipeline.arrRef spec0 w ≠ main_v15)
    (hw : Pipeline.arrRef spec0 w ∉ ([main_v0, main_v1, main_v2, main_v3, main_v4, main_v5, main_v6, main_v7, main_v8, main_v9, main_v10, main_v11, main_v12, main_v13] : List (Ref sig .tc))) :
    W3 m c (Proc.devRef .tc (Pipeline.arrRef spec0 w)) = m ((c : Thread nD τ).loc (Pipeline.arrRef spec0 w)) :=
  (W3_of_ne m c _ h15).trans ((W2_arr m c w).trans (((dat0 (V1 m) c).arrAt_in w hin _).trans
    ((A_eq0 (V1 m) c w).trans (W1_of_not_written m c _ hw))))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W3 m c) ∗ ∃ r, prngReg c r)

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)

/-! ## The regions as segments -/

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W2, left at W3; h's buffer is split between its two windows on
    entry and joined on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0)
          ∗ Pipeline.unscopedRest (Ix := Unit) (Name := ℕ) (U := UR sig nD τ) (Lvl := ℕ) spec1 c (V2 m c)) :=
      entry1 (F := F) (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c)) ⊢ (unscopedBufs c (V3 m c) : sProp 𝕄) :=
      exit1 (F := F) (V2 m) c (V3 m c) (W3_out m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hb0),
    .region (reg1 m hb1) ]
theorem main_run (c : Dev nD) : main (F := F) c = Pipeline.Seg.run (segs m hb0 hb1) := (main_chain c).trans (by chain_rfl)

include hb0 hb1 in
set_option backward.isDefEq.respectTransparency.types false in
/-- THE RUN: from any memory with zero counters every weakly fair execution of @main terminates, nothing faulting, and
    every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

include hb0 hb1 in
/-- THE RESULT AND THE FRAME: the result array ends at what region 1's write-backs leave, and every argument array as
    launched. -/
theorem run_result : θ_run defs (onTc (τ := τ) (main (F := F))) ⟨m, fun _ => 0, ρ⟩ (fun r => ∀ c : Dev nD,
      r.2.mem ((c.tc : Thread nD τ).loc main_v15) = (dat1 (V2 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v15 (by decide))).trans (W3_out m c),
      (h c _ (mem_uc main_arg0 (by decide))).trans (W3_of_plain m c main_arg0 (by decide) (by decide) (by decide)),
      (h c _ (mem_uc main_arg1 (by decide))).trans (W3_of_plain m c main_arg1 (by decide) (by decide) (by decide)),
      (h c _ (mem_uc main_arg2 (by decide))).trans (W3_of_plain m c main_arg2 (by decide) (by decide) (by decide)),
      (h c _ (mem_uc main_arg3 (by decide))).trans (W3_of_plain m c main_arg3 (by decide) (by decide) (by decide)),
      (h c _ (mem_uc main_arg4 (by decide))).trans (W3_of_plain m c main_arg4 (by decide) (by decide) (by decide)),
      (h c _ (mem_uc main_arg5 (by decide))).trans (W3_of_plain m c main_arg5 (by decide) (by decide) (by decide)),
      (h c _ (mem_uc main_arg6 (by decide))).trans (W3_of_plain m c main_arg6 (by decide) (by decide) (by decide)),
      (h c _ (mem_uc main_arg7 (by decide))).trans (W3_of_plain m c main_arg7 (by decide) (by decide) (by decide)),
      (h c _ (mem_uc main_arg8 (by decide))).trans (W3_of_plain m c main_arg8 (by decide) (by decide) (by decide)),
      (h c _ (mem_uc main_arg9 (by decide))).trans (W3_of_plain m c main_arg9 (by decide) (by decide) (by decide)),
      (h c _ (mem_uc main_arg10 (by decide))).trans (W3_of_plain m c main_arg10 (by decide) (by decide) (by decide)),
      (h c _ (mem_uc main_arg11 (by decide))).trans (W3_of_plain m c main_arg11 (by decide) (by decide) (by decide)),
      (h c _ (mem_uc main_arg12 (by decide))).trans (W3_of_plain m c main_arg12 (by decide) (by decide) (by decide)),
      (h c _ (mem_uc main_arg13 (by decide))).trans (W3_of_plain m c main_arg13 (by decide) (by decide) (by decide)),
      (h c _ (mem_uc main_arg14 (by decide))).trans (W3_of_input0 m c 10 rfl (by decide) (by decide)),
      (h c _ (mem_uc main_arg15 (by decide))).trans (W3_of_input0 m c 11 rfl (by decide) (by decide)),
      (h c _ (mem_uc main_arg16 (by decide))).trans (W3_of_plain m c main_arg16 (by decide) (by decide) (by decide))⟩) (run m ρ hb0 hb1)

include hb0 hb1 in
/-- THE FRAME alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_result m ρ hb0 hb1)

end Cert.Kernel.Hand

end
-- ==== Proof.K.Body0.lean ====
/- Region 0 of the gate kernel: the body's obligation at every grid point.
   Each of the twelve input windows' current buffer holds that window's block at the point, whether or not the block
   was moved in there at this point (the row block of x is moved in once per four points, h once in all); on those
   contents the body loads the twelve blocks whole, forms the two gate tiles and stores each whole over its output
   buffer, so the two output buffers end at the z tile and the r tile of the input blocks, the inputs as found. -/
import proofs.«123994_j5050881540410_1_alg».proof.Proof.K.Data0
import proofs.«123994_j5050881540410_1_alg».proof.Proof.Gen.Kernel.Launch
import proofs.«123994_j5050881540410_1_alg».proof.Proof.Gen.Kernel.Skeleton
import proofs.«123994_j5050881540410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (x): its current buffer holds its block at every point, moved in there or not, for any proof
    data whose array is the entry contents' and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (Wz): its current buffer holds its block at every point, moved in there or not, for any proof
    data whose array is the entry contents' and whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (Wr): its current buffer holds its block at every point, moved in there or not, for any proof
    data whose array is the entry contents' and whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (Uz): its current buffer holds its block at every point, moved in there or not, for any proof
    data whose array is the entry contents' and whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (Ur): its current buffer holds its block at every point, moved in there or not, for any proof
    data whose array is the entry contents' and whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (h): its current buffer holds its block at every point, moved in there or not, for any proof
    data whose array is the entry contents' and whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (bwz): its current buffer holds its block at every point, moved in there or not, for any proof
    data whose array is the entry contents' and whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (buz): its current buffer holds its block at every point, moved in there or not, for any proof
    data whose array is the entry contents' and whose body leaves the block in place; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (bwr): its current buffer holds its block at every point, moved in there or not, for any proof
    data whose array is the entry contents' and whose body leaves the block in place; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9 (bur): its current buffer holds its block at every point, moved in there or not, for any proof
    data whose array is the entry contents' and whose body leaves the block in place; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10 (b_z): its current buffer holds its block at every point, moved in there or not, for any proof
    data whose array is the entry contents' and whose body leaves the block in place; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11 (b_r): its current buffer holds its block at every point, moved in there or not, for any proof
    data whose array is the entry contents' and whose body leaves the block in place; the window is uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body's triple -/

set_option maxHeartbeats 4000000 in
/-- The body on whole buffers, the twelve inputs' at read contents and the two outputs' at anything, runs to the
    continuation holding the inputs' as they were, the z buffer at the z tile and the r buffer at the r tile of the
    inputs: ten loads in the first part, two more after it, and each output buffer loaded (to no use) and then
    stored whole. -/
theorem sound_gates0 (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .f32) (harg14 : arg14.IsWhole) (arg15 : Memref sig .tc .vmem S512x512 .f32) (harg15 : arg15.IsWhole)
    (x : Vec F S512x2048 .bf16) (wz : Vec F S512x2048 .bf16) (wr : Vec F S512x2048 .bf16) (uz : Vec F S512x2048 .bf16) (ur : Vec F S512x2048 .bf16) (h : Vec F S1x2048 .bf16) (bwz : Vec F S1x512 .f32) (buz : Vec F S1x512 .f32) (bwr : Vec F S1x512 .f32) (bur : Vec F S1x512 .f32) (bz : Vec F S1x512 .f32) (br : Vec F S1x512 .f32) (K : PUnit → sProp 𝕄) :
    iprop(owns (c : Thread nD τ) arg2 fullShare x
        ∗ owns (c : Thread nD τ) arg3 fullShare wz
        ∗ owns (c : Thread nD τ) arg4 fullShare wr
        ∗ owns (c : Thread nD τ) arg5 fullShare uz
        ∗ owns (c : Thread nD τ) arg6 fullShare ur
        ∗ owns (c : Thread nD τ) arg7 fullShare h
        ∗ owns (c : Thread nD τ) arg8 fullShare bwz
        ∗ owns (c : Thread nD τ) arg9 fullShare buz
        ∗ owns (c : Thread nD τ) arg10 fullShare bwr
        ∗ owns (c : Thread nD τ) arg11 fullShare bur
        ∗ owns (c : Thread nD τ) arg12 fullShare bz
        ∗ owns (c : Thread nD τ) arg13 fullShare br
        ∗ (∃ d, owns (c : Thread nD τ) arg14 fullShare d) ∗ (∃ d, owns (c : Thread nD τ) arg15 fullShare d)
        ∗ (iprop(owns (c : Thread nD τ) arg2 fullShare x
            ∗ owns (c : Thread nD τ) arg3 fullShare wz
            ∗ owns (c : Thread nD τ) arg4 fullShare wr
            ∗ owns (c : Thread nD τ) arg5 fullShare uz
            ∗ owns (c : Thread nD τ) arg6 fullShare ur
            ∗ owns (c : Thread nD τ) arg7 fullShare h
            ∗ owns (c : Thread nD τ) arg8 fullShare bwz
            ∗ owns (c : Thread nD τ) arg9 fullShare buz
            ∗ owns (c : Thread nD τ) arg10 fullShare bwr
            ∗ owns (c : Thread nD τ) arg11 fullShare bur
            ∗ owns (c : Thread nD τ) arg12 fullShare bz
            ∗ owns (c : Thread nD τ) arg13 fullShare br
            ∗ owns (c : Thread nD τ) arg14 fullShare (zblk x wz uz h bwz buz bz)
            ∗ owns (c : Thread nD τ) arg15 fullShare (rblk x wr ur h bwr bur br)) -∗ K ⟨⟩))
      ⊢ wp frame (wpE (defs₀ (F := F)) Variants.none c none) E (cc0__zr_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__zr_kernel_eq_skeleton]; unfold cc0__zr_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverT _)
  iexists _; isplitr
  swap; · iexact H13
  ipureintro
  exact View.read_writes_eq_canon _ _ _ (coverT _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_gates0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- Region 1 of the gate kernel, the body's half: at every grid point the kernel body, run on the windows' current
   staging buffers, keeps each input buffer at its block and leaves the output buffer at the result tile
     (1 − z)·h + z·tanh(x·Whᵀ + bwh + (r·h)·Uhᵀ + buh + b_h)
   of the ten input blocks. Every input buffer holds its block when the body is called, fetched at that point or
   not: a window that is not fetched at a point has the block index of the point before, and the body leaves input
   buffers as it finds them. The body reads the output buffer once before its single whole-tile store; nothing
   depends on what it reads there. -/
import proofs.«123994_j5050881540410_1_alg».proof.Proof.K.Data1
import proofs.«123994_j5050881540410_1_alg».proof.Proof.Gen.Kernel.Launch
import proofs.«123994_j5050881540410_1_alg».proof.Proof.Gen.Kernel.Skeleton
import proofs.«123994_j5050881540410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is V's and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is V's and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is V's and whose body leaves the block in place: unfetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

theorem before1_7 (c : Dev nD) (t : Fin cfg1.N) (d) : (dat1 V c).before 7 t d = iblk1 V c 7 t :=
  before1_7_of V (dat1 V c) (A_eq1 V c 7) (after1_7 V c) t d

theorem before1_8 (c : Dev nD) (t : Fin cfg1.N) (d) : (dat1 V c).before 8 t d = iblk1 V c 8 t :=
  before1_8_of V (dat1 V c) (A_eq1 V c 8) (after1_8 V c) t d

theorem before1_9 (c : Dev nD) (t : Fin cfg1.N) (d) : (dat1 V c).before 9 t d = iblk1 V c 9 t :=
  before1_9_of V (dat1 V c) (A_eq1 V c 9) (after1_9 V c) t d

/-! ## The body's triple -/

set_option maxHeartbeats 4000000 in
/-- The kernel body on whole staging memrefs, the inputs' at contents x … bh and the output's at anything, runs to
    the continuation holding the inputs' as they were and the output's at the result tile of the inputs': ten whole
    loads, a load of the output buffer, and one whole-tile store of the blend. -/
theorem sound_kernel1 (c : Dev nD) (E : Set ℕ) (i : grid1.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x : Vec F S512x2048 .bf16) (wh : Vec F S512x2048 .bf16) (uh : Vec F S512x2048 .bf16) (r : Vec F S512x2048 .f32) (hf : Vec F S1x2048 .f32) (ht : Vec F S1x512 .f32) (z : Vec F S512x512 .f32) (bwh : Vec F S1x512 .f32) (buh : Vec F S1x512 .f32) (bh : Vec F S1x512 .f32) (K : PUnit → sProp 𝕄) :
    iprop(owns (c : Thread nD τ) arg2 fullShare x ∗ owns (c : Thread nD τ) arg3 fullShare wh ∗ owns (c : Thread nD τ) arg4 fullShare uh ∗ owns (c : Thread nD τ) arg5 fullShare r ∗ owns (c : Thread nD τ) arg6 fullShare hf ∗ owns (c : Thread nD τ) arg7 fullShare ht ∗ owns (c : Thread nD τ) arg8 fullShare z ∗ owns (c : Thread nD τ) arg9 fullShare bwh ∗ owns (c : Thread nD τ) arg10 fullShare buh ∗ owns (c : Thread nD τ) arg11 fullShare bh ∗ (∃ d, owns (c : Thread nD τ) arg12 fullShare d)
        ∗ (iprop(owns (c : Thread nD τ) arg2 fullShare x ∗ owns (c : Thread nD τ) arg3 fullShare wh ∗ owns (c : Thread nD τ) arg4 fullShare uh ∗ owns (c : Thread nD τ) arg5 fullShare r ∗ owns (c : Thread nD τ) arg6 fullShare hf ∗ owns (c : Thread nD τ) arg7 fullShare ht ∗ owns (c : Thread nD τ) arg8 fullShare z ∗ owns (c : Thread nD τ) arg9 fullShare bwh ∗ owns (c : Thread nD τ) arg10 fullShare buh ∗ owns (c : Thread nD τ) arg11 fullShare bh ∗ owns (c : Thread nD τ) arg12 fullShare (oblk x wh uh r hf ht z bwh buh bh)) -∗ K ⟨⟩))
      ⊢ wp frame (wpE (defs₀ (F := F)) Variants.none c none) E (cc1__hhat_kernel i arg2 harg2 arg3 harg3 arg4 harg4 arg5 harg5 arg6 harg6 arg7 harg7 arg8 harg8 arg9 harg9 arg10 harg10 arg11 harg11 arg12 harg12) K := by
  simp only [cc1__hhat_kernel_eq_skeleton]; unfold cc1__hhat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (coverT1 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KI.Data0.lean ====
/- Region 0 of the gate kernel: the update gate z and the reset gate r, one 512x512 tile of each per grid point.
   At a grid point (i, j) the body reads the row block i of x, the row blocks j of Wz, Wr, Uz, Ur, the whole of h
   and the column blocks j of the six bias rows, and writes
     z-tile = logistic(x·Wzᵀ + bwz + h·Uzᵀ + buz + b_z),   r-tile = logistic(x·Wrᵀ + bwr + h·Urᵀ + bur + b_r).
   This module names those two tiles as functions of the twelve input blocks, and the pipeline's proof data over
   them at any contents V of the core's buffers on entry. -/
import proofs.«123994_j5050881540410_1_alg».proof.Proof.Gen.KernelIdeal.Launch
import proofs.«123994_j5050881540410_1_alg».proof.Proof.Gen.KernelIdeal.Skeleton
import proofs.«123994_j5050881540410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at grid point t, read off its array at the entry contents V. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 512x2048 block, of the 1x2048 row, of a 1x512 bias block, of a 512x512 tile. -/
abbrev rM : Rect S512x2048 := Rect.unit (s := S512x2048) ![0, 0] S512x2048.size inb_S512x2048_S512x2048_0_0
abbrev rH : Rect S1x2048 := Rect.unit (s := S1x2048) ![0, 0] S1x2048.size inb_S1x2048_S1x2048_0_0
abbrev rB : Rect S1x512 := Rect.unit (s := S1x512) ![0, 0] S1x512.size inb_S1x512_S1x512_0_0
abbrev rT : Rect S512x512 := Rect.unit (s := S512x512) ![0, 0] S512x512.size inb_S512x512_S512x512_0_0

/-- The z tile from the blocks of x, Wz, Uz, h, bwz, buz, b_z: the one store of the update gate, as a canonical piece list. -/
def zblk (x wz uz : Vec F S512x2048 .bf16) (h : Vec F S1x2048 .bf16) (bwz buz bz : Vec F S1x512 .f32) : Vec F S512x512 .f32 :=
  View.canon [⟨rT, k0_pay1 (k0_pay5 (View.ld x rM) (View.ld h rH) (View.ld wz rM) (View.ld uz rM) (View.ld bwz rB) (View.ld buz rB) (View.ld bz rB))⟩]

/-- The r tile from the blocks of x, Wr, Ur, h, bwr, bur, b_r. -/
def rblk (x wr ur : Vec F S512x2048 .bf16) (h : Vec F S1x2048 .bf16) (bwr bur br : Vec F S1x512 .f32) : Vec F S512x512 .f32 :=
  View.canon [⟨rT, k0_pay2 (k0_pay6 (View.ld x rM) (View.ld wr rM) (View.ld bwr rB)) (k0_pay7 (View.ld h rH) (View.ld ur rM)) (View.ld bur rB) (View.ld br rB)⟩]

/-- One whole-tile store covers the tile. -/
theorem coverT (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-- The proof data of region 0 on core c at entry contents V: every input's buffer keeps its block, the two output
    buffers hold the z and r tiles of the input blocks; the class-A invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => zblk (iblk0 V c 0 t) (iblk0 V c 1 t) (iblk0 V c 3 t) (iblk0 V c 5 t) (iblk0 V c 6 t) (iblk0 V c 7 t) (iblk0 V c 10 t)
    | ⟨13, _⟩ => rblk (iblk0 V c 0 t) (iblk0 V c 2 t) (iblk0 V c 4 t) (iblk0 V c 5 t) (iblk0 V c 8 t) (iblk0 V c 9 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t
    = zblk (iblk0 V c 0 t) (iblk0 V c 1 t) (iblk0 V c 3 t) (iblk0 V c 5 t) (iblk0 V c 6 t) (iblk0 V c 7 t) (iblk0 V c 10 t) := by dsimp only [dat0]
theorem after0_13 (c : Dev nD) (t : Fin cfg0.N) : (dat0 V c).after 13 t
    = rblk (iblk0 V c 0 t) (iblk0 V c 2 t) (iblk0 V c 4 t) (iblk0 V c 5 t) (iblk0 V c 8 t) (iblk0 V c 9 t) (iblk0 V c 11 t) := by dsimp only [dat0]

end Cert.KernelIdeal.Hand

end
-- ==== Proof.KI.Data1.lean ====
/- Region 1 of the gate kernel: the candidate state and the blend, one 512x512 tile of the result per grid point.
   At a grid point (i, j) the body reads the row block i of x, the row blocks j of Wh and Uh, the row block i of r
   (all 2048 columns), the whole of h, the column block j of h, the tile (i, j) of z and the column blocks j of the
   three bias rows, and writes
     out-tile = (1 − z)·h + z·tanh(x·Whᵀ + bwh + (r·h)·Uhᵀ + buh + b_h).
   h reaches the body through two windows over one array (the whole row, and its column block j): each holds half
   of the array's share. This module names the tile as a function of the ten input blocks, and the pipeline's proof
   data over it at any contents V of the core's buffers on entry. -/
import proofs.«123994_j5050881540410_1_alg».proof.Proof.Gen.KernelIdeal.Launch
import proofs.«123994_j5050881540410_1_alg».proof.Proof.Gen.KernelIdeal.Skeleton
import proofs.«123994_j5050881540410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at grid point t, read off its array at the entry contents V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 512x2048 block, of the 1x2048 row, of a 1x512 block, of a 512x512 tile. -/
abbrev sM : Rect S512x2048 := Rect.unit (s := S512x2048) ![0, 0] S512x2048.size inb_S512x2048_S512x2048_0_0
abbrev sH : Rect S1x2048 := Rect.unit (s := S1x2048) ![0, 0] S1x2048.size inb_S1x2048_S1x2048_0_0
abbrev sB : Rect S1x512 := Rect.unit (s := S1x512) ![0, 0] S1x512.size inb_S1x512_S1x512_0_0
abbrev sT : Rect S512x512 := Rect.unit (s := S512x512) ![0, 0] S512x512.size inb_S512x512_S512x512_0_0

/-- The result tile from the blocks of x, Wh, Uh, r, h (whole), h (column block), z, bwh, buh, b_h. -/
def oblk (x wh uh : Vec F S512x2048 .bf16) (r : Vec F S512x2048 .f32) (hf : Vec F S1x2048 .f32) (ht : Vec F S1x512 .f32)
    (z : Vec F S512x512 .f32) (bwh buh bh : Vec F S1x512 .f32) : Vec F S512x512 .f32 :=
  View.canon [⟨sT, k1_pay1 (k1_pay3 (View.ld ht sB) (View.ld z sT))
    (k1_pay4 (View.ld x sM) (View.ld wh sM) (View.ld uh sM) (View.ld r sM) (View.ld hf sH) (View.ld z sT) (View.ld bwh sB) (View.ld buh sB) (View.ld bh sB))⟩]

/-- One whole-tile store covers the tile. -/
theorem coverT1 (p0 : Vec F S512x512 .f32) (y : S512x512.Idx) :
    ∃ pc ∈ ([⟨sT, p0⟩] : List (View.Piece (Elt F) S512x512 .f32)), y ∈ pc.1.set :=
  View.cover_of_tiled [⟨sT, p0⟩] S512x512.size (by rfl) y

/-- The share of its array each input window holds: the two windows over h hold one half each, every other
    window its whole array. -/
def q1 : Fin cfg1.W → PosShare TreeShare
  | ⟨0, _⟩ => fullShare
  | ⟨1, _⟩ => fullShare
  | ⟨2, _⟩ => fullShare
  | ⟨3, _⟩ => fullShare
  | ⟨4, _⟩ => fullShare.left
  | ⟨5, _⟩ => fullShare.right
  | ⟨6, _⟩ => fullShare
  | ⟨7, _⟩ => fullShare
  | ⟨8, _⟩ => fullShare
  | ⟨9, _⟩ => fullShare
  | ⟨10, _⟩ => fullShare

/-- The proof data of region 1 on core c at entry contents V: every input's buffer keeps its block, the output
    buffer holds the result tile of the input blocks; the class-A invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

end Cert.KernelIdeal.Hand

end
-- ==== Proof.KI.Shared1.lean ====
/- Region 1's arrays and the core's buffers. Ten distinct arrays stand behind the region's eleven windows: h is read
   through two of them. On entry the core's buffers at contents V split into the windows' arrays — h's buffer into two
   halves of its share, one per window — and the buffers no window reads; on exit the two halves, both still at h's
   contents, join again, and the one array the region writes holds what its write-backs left. -/
import proofs.«123994_j5050881540410_1_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The ten distinct buffers behind region 1's windows, one by one. -/
theorem arrBufs1_eq (c : Dev nD) (W : (b : Ref sig .tc) → Buf (Elt F) ((c : Thread nD τ).loc b)) :
    (Pipeline.arrBufs spec1 c W : sProp 𝕄)
      = iprop((((c : Thread nD τ).loc main_v0) ↦{fullShare} W main_v0) ∗ (((c : Thread nD τ).loc main_v4) ↦{fullShare} W main_v4) ∗ (((c : Thread nD τ).loc main_v7) ↦{fullShare} W main_v7) ∗ (((c : Thread nD τ).loc main_v14_1) ↦{fullShare} W main_v14_1) ∗ (((c : Thread nD τ).loc main_arg1) ↦{fullShare} W main_arg1) ∗ (((c : Thread nD τ).loc main_v14_0) ↦{fullShare} W main_v14_0) ∗ (((c : Thread nD τ).loc main_v12) ↦{fullShare} W main_v12) ∗ (((c : Thread nD τ).loc main_v13) ↦{fullShare} W main_v13) ∗ (((c : Thread nD τ).loc main_arg16) ↦{fullShare} W main_arg16) ∗ (((c : Thread nD τ).loc main_v15) ↦{fullShare} W main_v15)) := by
  unfold Pipeline.arrBufs
  exact bigSep_eq_bigSepL_of_eq [main_v0, main_v4, main_v7, main_v14_1, main_arg1, main_v14_0, main_v12, main_v13, main_arg16, main_v15] (by decide) (by decide) _

/-- Region 1's arrays at contents G, window by window: each whole, at the window's share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare} G 0) ∗ (((c : Thread nD τ).loc main_v4) ↦{fullShare} G 1) ∗ (((c : Thread nD τ).loc main_v7) ↦{fullShare} G 2) ∗ (((c : Thread nD τ).loc main_v14_1) ↦{fullShare} G 3) ∗ (((c : Thread nD τ).loc main_arg1) ↦{fullShare.left} G 4) ∗ (((c : Thread nD τ).loc main_arg1) ↦{fullShare.right} G 5) ∗ (((c : Thread nD τ).loc main_v14_0) ↦{fullShare} G 6) ∗ (((c : Thread nD τ).loc main_v12) ↦{fullShare} G 7) ∗ (((c : Thread nD τ).loc main_v13) ↦{fullShare} G 8) ∗ (((c : Thread nD τ).loc main_arg16) ↦{fullShare} G 9) ∗ (((c : Thread nD τ).loc main_v15) ↦{fullShare} G 10)) := by
  have h : ((dat1 V c).arrays G : sProp 𝕄)
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- The core's unscoped buffers at any contents: the ten buffers behind region 1's windows, and the rest. -/
theorem unscopedBufs1_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at V are region 1's arrays at the proof data's entry contents and the rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split c (V c)]
  refine sep_mono ?_ .rfl
  rw [arrBufs1_eq, arrays1_eq]
  iintro ⟨H0, H1, H2, H3, Hh, H6, H7, H8, H9, H10⟩
  ihave Hh := (pointsTo_share (PosShare.mem_left_op_right fullShare)).1 $$ Hh
  icases Hh with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: region 1's arrays at their final contents and the rest at V are the core's unscoped buffers at any V' that
    holds the result array's final contents and agrees with V elsewhere. -/
theorem exit1 (c : Dev nD) (V' : (b : Ref sig .tc) → Buf (Elt F) ((c : Thread nD τ).loc b))
    (hout : V' main_v15 = (dat1 V c).arrAt 10 cfg1.N) (hrest : ∀ b : Ref sig .tc, b ≠ main_v15 → V' b = V c b) :
    iprop((dat1 V c).arrays ((dat1 V c).arrAt · cfg1.N) ∗ Pipeline.unscopedRest spec1 c (V c)) ⊢ (unscopedBufs c V' : sProp 𝕄) := by
  -- an input's array is never written back, so it ends at its entry contents, where V' agrees with V
  have hin : ∀ w (hw : (cfg1.win w).isOut = false), Pipeline.arrRef spec1 w ≠ main_v15 →
      (dat1 V c).arrAt w cfg1.N = V' (Pipeline.arrRef spec1 w) := fun w hw hne =>
    (((dat1 V c).arrAt_in w hw _).trans (A_eq1 V c w)).trans (hrest _ hne).symm
  have hG : ∀ w, (dat1 V c).arrAt w cfg1.N = V' (Pipeline.arrRef spec1 w) := fun
    | 0 => hin 0 rfl (by decide) | 1 => hin 1 rfl (by decide) | 2 => hin 2 rfl (by decide) | 3 => hin 3 rfl (by decide)
    | 4 => hin 4 rfl (by decide) | 5 => hin 5 rfl (by decide) | 6 => hin 6 rfl (by decide) | 7 => hin 7 rfl (by decide)
    | 8 => hin 8 rfl (by decide) | 9 => hin 9 rfl (by decide) | 10 => hout.symm
    | ⟨_ + 11, h⟩ => absurd h (Nat.not_lt.2 (Nat.le_add_left _ _))
  rw [unscopedBufs1_split c V']
  refine sep_mono ((Entails.of_eq (congrArg (dat1 V c).arrays (funext hG))).trans ?_) (Entails.of_eq ?_)
  · rw [arrBufs1_eq, arrays1_eq]
    iintro ⟨H0, H1, H2, H3, H4, H5, H6, H7, H8, H9, H10⟩
    ihave Hh := (pointsTo_share (PosShare.mem_left_op_right fullShare)).2 $$ [H4 H5]
    · isplitl [H4] <;> iassumption
    isplitl [H0]; · iexact H0
    isplitl [H1]; · iexact H1
    isplitl [H2]; · iexact H2
    isplitl [H3]; · iexact H3
    isplitl [Hh]; · iexact Hh
    isplitl [H6]; · iexact H6
    isplitl [H7]; · iexact H7
    isplitl [H8]; · iexact H8
    isplitl [H9]; · iexact H9
    iexact H10
  · unfold Pipeline.unscopedRest
    exact bigSep_congr fun b hb => by
      rw [hrest b fun e => (Finset.mem_sdiff.mp hb).2 (e ▸ Finset.mem_image_of_mem (Pipeline.arrRef spec1) (Finset.mem_univ (10 : Fin 11)))]

end Cert.KernelIdeal.Hand

end
-- ==== Proof.KI.Run.lean ====
/- The whole run of the two-region program: the contents of the core's buffers at each boundary of @main — the launch
   memory, then what the fourteen host operations write, then region 0's two output arrays at what its write-backs
   leave, then region 1's output array likewise —, each region as a segment of @main between those contents, and the
   launch: every weakly fair execution terminates, faults nowhere, and ends with every unscoped buffer of every core
   at the last boundary's contents. From that, the arguments end as launched and the result array ends at what
   region 1's write-backs leave. -/
import proofs.«123994_j5050881540410_1_alg».proof.Proof.KI.Data0
import proofs.«123994_j5050881540410_1_alg».proof.Proof.KI.Data1
import proofs.«123994_j5050881540410_1_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: the result array at what the pipeline leaves, every other buffer as entered. -/
def W3 (c : Dev nD) : Valuation τ sig (Elt F) :=
  Function.update (W2 m c) (Proc.devRef .tc main_v15) ((dat1 (V2 m) c).arrAt 10 cfg1.N)
abbrev V3 : (c : Dev nD) → (b : Ref sig .tc) → Buf (Elt F) ((c : Thread nD τ).loc b) := fun c b => W3 m c b
theorem W3_out (c : Dev nD) : W3 m c (Proc.devRef .tc main_v15) = (dat1 (V2 m) c).arrAt 10 cfg1.N := by
  unfold W3; exact Function.update_self ..
theorem W3_of_ne (c : Dev nD) (b : Ref sig .tc) (hb : b ≠ main_v15) :
    W3 m c (Proc.devRef .tc b) = W2 m c (Proc.devRef .tc b) := by
  unfold W3; exact Function.update_of_ne (StableHlo.devRef_ne_of_ne hb) ..

/-- No host operation writes an argument, region 0 writes its two outputs only, region 1 its one. -/
theorem W1_of_not_written (c : Dev nD) (b : Ref sig .tc)
    (hb : b ∉ ([main_v0, main_v1, main_v2, main_v3, main_v4, main_v5, main_v6, main_v7, main_v8, main_v9, main_v10, main_v11, main_v12, main_v13] : List (Ref sig .tc))) :
    W1 m c (Proc.devRef .tc b) = m ((c : Thread nD τ).loc b) := by
  simp only [List.mem_cons, List.not_mem_nil, or_false, not_or] at hb
  obtain ⟨h0, h1, h2, h3, h4, h5, h6, h7, h8, h9, h10, h11, h12, h13⟩ := hb
  refine (StableHlo.after_of_forall_not_mem (b := Proc.devRef .tc b) hostOps0 (W0 m c) (List.forall_iff_forall_mem.mp ?_)).trans rfl
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

/-- A buffer that is no host operation's result, no array of region 0 and not the result array ends as launched. -/
theorem W3_of_plain (c : Dev nD) (b : Ref sig .tc) (h15 : b ≠ main_v15) (harr : ∀ w, Pipeline.arrRef spec0 w ≠ b)
    (hw : b ∉ ([main_v0, main_v1, main_v2, main_v3, main_v4, main_v5, main_v6, main_v7, main_v8, main_v9, main_v10, main_v11, main_v12, main_v13] : List (Ref sig .tc))) :
    W3 m c (Proc.devRef .tc b) = m ((c : Thread nD τ).loc b) :=
  (W3_of_ne m c b h15).trans ((W2_of_ne m c b harr).trans (W1_of_not_written m c b hw))

/-- An input array of region 0 that no host operation writes ends as launched: an input array is never written. -/
theorem W3_of_input0 (c : Dev nD) (w : Fin cfg0.W) (hin : (cfg0.win w).isOut = false) (h15 : Pipeline.arrRef spec0 w ≠ main_v15)
    (hw : Pipeline.arrRef spec0 w ∉ ([main_v0, main_v1, main_v2, main_v3, main_v4, main_v5, main_v6, main_v7, main_v8, main_v9, main_v10, main_v11, main_v12, main_v13] : List (Ref sig .tc))) :
    W3 m c (Proc.devRef .tc (Pipeline.arrRef spec0 w)) = m ((c : Thread nD τ).loc (Pipeline.arrRef spec0 w)) :=
  (W3_of_ne m c _ h15).trans ((W2_arr m c w).trans (((dat0 (V1 m) c).arrAt_in w hin _).trans
    ((A_eq0 (V1 m) c w).trans (W1_of_not_written m c _ hw))))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W3 m c) ∗ ∃ r, prngReg c r)

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)

/-! ## The regions as segments -/

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W2, left at W3; h's buffer is split between its two windows on
    entry and joined on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0)
          ∗ Pipeline.unscopedRest (Ix := Unit) (Name := ℕ) (U := UR sig nD τ) (Lvl := ℕ) spec1 c (V2 m c)) :=
      entry1 (F := F) (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c)) ⊢ (unscopedBufs c (V3 m c) : sProp 𝕄) :=
      exit1 (F := F) (V2 m) c (V3 m c) (W3_out m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hb0),
    .region (reg1 m hb1) ]
theorem main_run (c : Dev nD) : main (F := F) c = Pipeline.Seg.run (segs m hb0 hb1) := (main_chain c).trans (by chain_rfl)

include hb0 hb1 in
set_option backward.isDefEq.respectTransparency.types false in
/-- THE RUN: from any memory with zero counters every weakly fair execution of @main terminates, nothing faulting, and
    every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

include hb0 hb1 in
/-- THE RESULT AND THE FRAME: the result array ends at what region 1's write-backs leave, and every argument array as
    launched. -/
theorem run_result : θ_run defs (onTc (τ := τ) (main (F := F))) ⟨m, fun _ => 0, ρ⟩ (fun r => ∀ c : Dev nD,
      r.2.mem ((c.tc : Thread nD τ).loc main_v15) = (dat1 (V2 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v15 (by decide))).trans (W3_out m c),
      (h c _ (mem_uc main_arg0 (by decide))).trans (W3_of_plain m c main_arg0 (by decide) (by decide) (by decide)),
      (h c _ (mem_uc main_arg1 (by decide))).trans (W3_of_plain m c main_arg1 (by decide) (by decide) (by decide)),
      (h c _ (mem_uc main_arg2 (by decide))).trans (W3_of_plain m c main_arg2 (by decide) (by decide) (by decide)),
      (h c _ (mem_uc main_arg3 (by decide))).trans (W3_of_plain m c main_arg3 (by decide) (by decide) (by decide)),
      (h c _ (mem_uc main_arg4 (by decide))).trans (W3_of_plain m c main_arg4 (by decide) (by decide) (by decide)),
      (h c _ (mem_uc main_arg5 (by decide))).trans (W3_of_plain m c main_arg5 (by decide) (by decide) (by decide)),
      (h c _ (mem_uc main_arg6 (by decide))).trans (W3_of_plain m c main_arg6 (by decide) (by decide) (by decide)),
      (h c _ (mem_uc main_arg7 (by decide))).trans (W3_of_plain m c main_arg7 (by decide) (by decide) (by decide)),
      (h c _ (mem_uc main_arg8 (by decide))).trans (W3_of_plain m c main_arg8 (by decide) (by decide) (by decide)),
      (h c _ (mem_uc main_arg9 (by decide))).trans (W3_of_plain m c main_arg9 (by decide) (by decide) (by decide)),
      (h c _ (mem_uc main_arg10 (by decide))).trans (W3_of_plain m c main_arg10 (by decide) (by decide) (by decide)),
      (h c _ (mem_uc main_arg11 (by decide))).trans (W3_of_plain m c main_arg11 (by decide) (by decide) (by decide)),
      (h c _ (mem_uc main_arg12 (by decide))).trans (W3_of_plain m c main_arg12 (by decide) (by decide) (by decide)),
      (h c _ (mem_uc main_arg13 (by decide))).trans (W3_of_plain m c main_arg13 (by decide) (by decide) (by decide)),
      (h c _ (mem_uc main_arg14 (by decide))).trans (W3_of_input0 m c 10 rfl (by decide) (by decide)),
      (h c _ (mem_uc main_arg15 (by decide))).trans (W3_of_input0 m c 11 rfl (by decide) (by decide)),
      (h c _ (mem_uc main_arg16 (by decide))).trans (W3_of_plain m c main_arg16 (by decide) (by decide) (by decide))⟩) (run m ρ hb0 hb1)

include hb0 hb1 in
/-- THE FRAME alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_result m ρ hb0 hb1)

end Cert.KernelIdeal.Hand

end
-- ==== Proof.KI.Body0.lean ====
/- Region 0 of the gate kernel: the body's obligation at every grid point.
   Each of the twelve input windows' current buffer holds that window's block at the point, whether or not the block
   was moved in there at this point (the row block of x is moved in once per four points, h once in all); on those
   contents the body loads the twelve blocks whole, forms the two gate tiles and stores each whole over its output
   buffer, so the two output buffers end at the z tile and the r tile of the input blocks, the inputs as found. -/
import proofs.«123994_j5050881540410_1_alg».proof.Proof.KI.Data0
import proofs.«123994_j5050881540410_1_alg».proof.Proof.Gen.KernelIdeal.Launch
import proofs.«123994_j5050881540410_1_alg».proof.Proof.Gen.KernelIdeal.Skeleton
import proofs.«123994_j5050881540410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (x): its current buffer holds its block at every point, moved in there or not, for any proof
    data whose array is the entry contents' and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (Wz): its current buffer holds its block at every point, moved in there or not, for any proof
    data whose array is the entry contents' and whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (Wr): its current buffer holds its block at every point, moved in there or not, for any proof
    data whose array is the entry contents' and whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (Uz): its current buffer holds its block at every point, moved in there or not, for any proof
    data whose array is the entry contents' and whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (Ur): its current buffer holds its block at every point, moved in there or not, for any proof
    data whose array is the entry contents' and whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (h): its current buffer holds its block at every point, moved in there or not, for any proof
    data whose array is the entry contents' and whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (bwz): its current buffer holds its block at every point, moved in there or not, for any proof
    data whose array is the entry contents' and whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (buz): its current buffer holds its block at every point, moved in there or not, for any proof
    data whose array is the entry contents' and whose body leaves the block in place; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (bwr): its current buffer holds its block at every point, moved in there or not, for any proof
    data whose array is the entry contents' and whose body leaves the block in place; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9 (bur): its current buffer holds its block at every point, moved in there or not, for any proof
    data whose array is the entry contents' and whose body leaves the block in place; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10 (b_z): its current buffer holds its block at every point, moved in there or not, for any proof
    data whose array is the entry contents' and whose body leaves the block in place; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11 (b_r): its current buffer holds its block at every point, moved in there or not, for any proof
    data whose array is the entry contents' and whose body leaves the block in place; the window is uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body's triple -/

set_option maxHeartbeats 4000000 in
/-- The body on whole buffers, the twelve inputs' at read contents and the two outputs' at anything, runs to the
    continuation holding the inputs' as they were, the z buffer at the z tile and the r buffer at the r tile of the
    inputs: ten loads in the first part, two more after it, and each output buffer loaded (to no use) and then
    stored whole. -/
theorem sound_gates0 (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .f32) (harg14 : arg14.IsWhole) (arg15 : Memref sig .tc .vmem S512x512 .f32) (harg15 : arg15.IsWhole)
    (x : Vec F S512x2048 .bf16) (wz : Vec F S512x2048 .bf16) (wr : Vec F S512x2048 .bf16) (uz : Vec F S512x2048 .bf16) (ur : Vec F S512x2048 .bf16) (h : Vec F S1x2048 .bf16) (bwz : Vec F S1x512 .f32) (buz : Vec F S1x512 .f32) (bwr : Vec F S1x512 .f32) (bur : Vec F S1x512 .f32) (bz : Vec F S1x512 .f32) (br : Vec F S1x512 .f32) (K : PUnit → sProp 𝕄) :
    iprop(owns (c : Thread nD τ) arg2 fullShare x
        ∗ owns (c : Thread nD τ) arg3 fullShare wz
        ∗ owns (c : Thread nD τ) arg4 fullShare wr
        ∗ owns (c : Thread nD τ) arg5 fullShare uz
        ∗ owns (c : Thread nD τ) arg6 fullShare ur
        ∗ owns (c : Thread nD τ) arg7 fullShare h
        ∗ owns (c : Thread nD τ) arg8 fullShare bwz
        ∗ owns (c : Thread nD τ) arg9 fullShare buz
        ∗ owns (c : Thread nD τ) arg10 fullShare bwr
        ∗ owns (c : Thread nD τ) arg11 fullShare bur
        ∗ owns (c : Thread nD τ) arg12 fullShare bz
        ∗ owns (c : Thread nD τ) arg13 fullShare br
        ∗ (∃ d, owns (c : Thread nD τ) arg14 fullShare d) ∗ (∃ d, owns (c : Thread nD τ) arg15 fullShare d)
        ∗ (iprop(owns (c : Thread nD τ) arg2 fullShare x
            ∗ owns (c : Thread nD τ) arg3 fullShare wz
            ∗ owns (c : Thread nD τ) arg4 fullShare wr
            ∗ owns (c : Thread nD τ) arg5 fullShare uz
            ∗ owns (c : Thread nD τ) arg6 fullShare ur
            ∗ owns (c : Thread nD τ) arg7 fullShare h
            ∗ owns (c : Thread nD τ) arg8 fullShare bwz
            ∗ owns (c : Thread nD τ) arg9 fullShare buz
            ∗ owns (c : Thread nD τ) arg10 fullShare bwr
            ∗ owns (c : Thread nD τ) arg11 fullShare bur
            ∗ owns (c : Thread nD τ) arg12 fullShare bz
            ∗ owns (c : Thread nD τ) arg13 fullShare br
            ∗ owns (c : Thread nD τ) arg14 fullShare (zblk x wz uz h bwz buz bz)
            ∗ owns (c : Thread nD τ) arg15 fullShare (rblk x wr ur h bwr bur br)) -∗ K ⟨⟩))
      ⊢ wp frame (wpE (defs₀ (F := F)) Variants.none c none) E (cc0__zr_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__zr_kernel_eq_skeleton]; unfold cc0__zr_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverT _)
  iexists _; isplitr
  swap; · iexact H13
  ipureintro
  exact View.read_writes_eq_canon _ _ _ (coverT _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_gates0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- Region 1 of the gate kernel, the body's half: at every grid point the kernel body, run on the windows' current
   staging buffers, keeps each input buffer at its block and leaves the output buffer at the result tile
     (1 − z)·h + z·tanh(x·Whᵀ + bwh + (r·h)·Uhᵀ + buh + b_h)
   of the ten input blocks. Every input buffer holds its block when the body is called, fetched at that point or
   not: a window that is not fetched at a point has the block index of the point before, and the body leaves input
   buffers as it finds them. The body reads the output buffer once before its single whole-tile store; nothing
   depends on what it reads there. -/
import proofs.«123994_j5050881540410_1_alg».proof.Proof.KI.Data1
import proofs.«123994_j5050881540410_1_alg».proof.Proof.Gen.KernelIdeal.Launch
import proofs.«123994_j5050881540410_1_alg».proof.Proof.Gen.KernelIdeal.Skeleton
import proofs.«123994_j5050881540410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is V's and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is V's and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is V's and whose body leaves the block in place: unfetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

theorem before1_7 (c : Dev nD) (t : Fin cfg1.N) (d) : (dat1 V c).before 7 t d = iblk1 V c 7 t :=
  before1_7_of V (dat1 V c) (A_eq1 V c 7) (after1_7 V c) t d

theorem before1_8 (c : Dev nD) (t : Fin cfg1.N) (d) : (dat1 V c).before 8 t d = iblk1 V c 8 t :=
  before1_8_of V (dat1 V c) (A_eq1 V c 8) (after1_8 V c) t d

theorem before1_9 (c : Dev nD) (t : Fin cfg1.N) (d) : (dat1 V c).before 9 t d = iblk1 V c 9 t :=
  before1_9_of V (dat1 V c) (A_eq1 V c 9) (after1_9 V c) t d

/-! ## The body's triple -/

set_option maxHeartbeats 4000000 in
/-- The kernel body on whole staging memrefs, the inputs' at contents x … bh and the output's at anything, runs to
    the continuation holding the inputs' as they were and the output's at the result tile of the inputs': ten whole
    loads, a load of the output buffer, and one whole-tile store of the blend. -/
theorem sound_kernel1 (c : Dev nD) (E : Set ℕ) (i : grid1.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x : Vec F S512x2048 .bf16) (wh : Vec F S512x2048 .bf16) (uh : Vec F S512x2048 .bf16) (r : Vec F S512x2048 .f32) (hf : Vec F S1x2048 .f32) (ht : Vec F S1x512 .f32) (z : Vec F S512x512 .f32) (bwh : Vec F S1x512 .f32) (buh : Vec F S1x512 .f32) (bh : Vec F S1x512 .f32) (K : PUnit → sProp 𝕄) :
    iprop(owns (c : Thread nD τ) arg2 fullShare x ∗ owns (c : Thread nD τ) arg3 fullShare wh ∗ owns (c : Thread nD τ) arg4 fullShare uh ∗ owns (c : Thread nD τ) arg5 fullShare r ∗ owns (c : Thread nD τ) arg6 fullShare hf ∗ owns (c : Thread nD τ) arg7 fullShare ht ∗ owns (c : Thread nD τ) arg8 fullShare z ∗ owns (c : Thread nD τ) arg9 fullShare bwh ∗ owns (c : Thread nD τ) arg10 fullShare buh ∗ owns (c : Thread nD τ) arg11 fullShare bh ∗ (∃ d, owns (c : Thread nD τ) arg12 fullShare d)
        ∗ (iprop(owns (c : Thread nD τ) arg2 fullShare x ∗ owns (c : Thread nD τ) arg3 fullShare wh ∗ owns (c : Thread nD τ) arg4 fullShare uh ∗ owns (c : Thread nD τ) arg5 fullShare r ∗ owns (c : Thread nD τ) arg6 fullShare hf ∗ owns (c : Thread nD τ) arg7 fullShare ht ∗ owns (c : Thread nD τ) arg8 fullShare z ∗ owns (c : Thread nD τ) arg9 fullShare bwh ∗ owns (c : Thread nD τ) arg10 fullShare buh ∗ owns (c : Thread nD τ) arg11 fullShare bh ∗ owns (c : Thread nD τ) arg12 fullShare (oblk x wh uh r hf ht z bwh buh bh)) -∗ K ⟨⟩))
      ⊢ wp frame (wpE (defs₀ (F := F)) Variants.none c none) E (cc1__hhat_kernel i arg2 harg2 arg3 harg3 arg4 harg4 arg5 harg5 arg6 harg6 arg7 harg7 arg8 harg8 arg9 harg9 arg10 harg10 arg11 harg11 arg12 harg12) K := by
  simp only [cc1__hhat_kernel_eq_skeleton]; unfold cc1__hhat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (coverT1 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Spec.lean ====
/- The GRU cell's step as one function of its seventeen arguments, element by element over the extended reals.
   With rows p of the batch and columns q of the state:
     lin x W bw h U bu b p q = ((((Σₖ x p k · W q k) + bw q) + (Σₖ h k · U q k)) + bu q) + b q
     z = logistic (lin x Wz bwz h Uz buz b_z),   r = logistic (lin x Wr bwr h Ur bur b_r)
     cand p q = tanh (((((Σₖ x p k · Wh q k) + bwh q) + (Σₖ (r p k · h k) · Uh q k)) + buh q) + b_h q)
     out p q = (1 − z p q) · h q + z p q · cand p q
   Arrays are curried over their coordinates, so that no statement here depends on a shape's spelling; the
   number one is kept as the binary word both programs print for it. -/
import Idealize.ShloMosaic.PureOps.Ideal
import Idealize.ShloMosaic.Lib.ValueIdx

noncomputable section

open scoped BigOperators

namespace Cert.Spec

open Idealize.ShloMosaic

/-- A matrix of extended reals by row and column, and a row by column. -/
abbrev Mat (a b : Nat) : Type := Fin a → Fin b → EReal
abbrev Row (b : Nat) : Type := Fin b → EReal

/-- A rank-2 array by its coordinates; a one-row rank-2 array by its column; a rank-1 array by its coordinate. -/
abbrev mat {a b : Nat} (A : (⟨2, ![a, b]⟩ : Shape).Idx → EReal) : Mat a b := fun i j => A (ValueIdx.ix2 i j)
abbrev row {b : Nat} (A : (⟨2, ![1, b]⟩ : Shape).Idx → EReal) : Row b := fun j => A (ValueIdx.ix2 0 j)
abbrev vec {b : Nat} (A : (⟨1, ![b]⟩ : Shape).Idx → EReal) : Row b := fun j => A (ValueIdx.ix1 j)

/-- The word both programs print for 1.0, read at the ideal instance. -/
def one : EReal := Ideal.ofBits .f32 0x3F800000#32

/-- A gate's pre-activation at row p, column q: the two products and the three biases, added left to right. -/
def lin (x : Mat 4096 2048) (W : Mat 2048 2048) (bw : Row 2048) (h : Row 2048) (U : Mat 2048 2048) (bu b : Row 2048)
    (p : Fin 4096) (q : Fin 2048) : EReal :=
  ((((∑ k : Fin 2048, x p k * W q k) + bw q) + (∑ k : Fin 2048, h k * U q k)) + bu q) + b q

/-- A gate: the logistic function of its pre-activation. -/
def gate (x : Mat 4096 2048) (W : Mat 2048 2048) (bw : Row 2048) (h : Row 2048) (U : Mat 2048 2048) (bu b : Row 2048) : Mat 4096 2048 :=
  fun p q => Ideal.logistic (lin x W bw h U bu b p q)

/-- The candidate state's pre-activation from the reset gate r. -/
def candLin (x : Mat 4096 2048) (Wh : Mat 2048 2048) (bwh : Row 2048) (r : Mat 4096 2048) (h : Row 2048) (Uh : Mat 2048 2048) (buh bh : Row 2048)
    (p : Fin 4096) (q : Fin 2048) : EReal :=
  ((((∑ k : Fin 2048, x p k * Wh q k) + bwh q) + (∑ k : Fin 2048, (r p k * h k) * Uh q k)) + buh q) + bh q

/-- The new state from the two gates: the blend of the old state and the candidate. -/
def blend (x : Mat 4096 2048) (Wh : Mat 2048 2048) (bwh : Row 2048) (r : Mat 4096 2048) (h : Row 2048) (Uh : Mat 2048 2048) (buh bh : Row 2048)
    (z : Mat 4096 2048) : Mat 4096 2048 :=
  fun p q => (one - z p q) * h q + z p q * Ideal.tanh (candLin x Wh bwh r h Uh buh bh p q)

/-- The whole step. -/
def step (x : Mat 4096 2048) (h : Row 2048) (Wz : Mat 2048 2048) (bwz : Row 2048) (Uz : Mat 2048 2048) (buz : Row 2048)
    (Wr : Mat 2048 2048) (bwr : Row 2048) (Ur : Mat 2048 2048) (bur : Row 2048)
    (Wh : Mat 2048 2048) (bwh : Row 2048) (Uh : Mat 2048 2048) (buh : Row 2048) (b_z b_r b_h : Row 2048) : Mat 4096 2048 :=
  blend x Wh bwh (gate x Wr bwr h Ur bur b_r) h Uh buh b_h (gate x Wz bwz h Uz buz b_z)

end Cert.Spec

end
-- ==== Proof.KI.Pay0.lean ====
/- The two gate tiles of region 0 read at an entry, over the extended reals: entry (a, b) of the z tile is the
   logistic function of ((((Σₖ x a k · Wz b k) + bwz b) + (Σₖ h k · Uz b k)) + buz b) + b_z b, and likewise for r. -/
import proofs.«123994_j5050881540410_1_alg».proof.Proof.KI.Data0
import proofs.«123994_j5050881540410_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The zero offsets of a whole-block rectangle are the constant zero function. -/
theorem hz2 : (![0, 0] : Fin 2 → Nat) = fun _ => 0 :=
  funext fun a => match a with
    | ⟨0, _⟩ => rfl
    | ⟨1, _⟩ => rfl

/-! ## The [512,2048] × [512,2048] → [512,512] product contracting the last axis of both operands -/

/-- The left operand's row is the output's row. -/
theorem lhs_mm1_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- The left operand's column is the contraction position. -/
theorem lhs_mm1_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- The right operand's row is the output's column. -/
theorem rhs_mm1_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- The right operand's column is the contraction position. -/
theorem rhs_mm1_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (a, b) of the product into the zero accumulator is Σₖ l (a, k) · r (b, k). -/
theorem mm1_apply (l r : FVec Ideal S512x2048 .bf16) (a b : Fin 512) :
    matmul dot_S512x2048_S512x2048_S512x512_1_1_0_0_n_n none l r (constant (F := Ideal) S512x512 .f32 0x00000000#32) (ix2 a b)
      = ∑ k : Fin 2048, l (ix2 a k) * r (ix2 b k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 a b) ((contrEquiv1 dot_S512x2048_S512x2048_S512x512_1_1_0_0_n_n 2048 rfl rfl).symm k) = ix2 a k := funext fun ax => Fin.ext (by
    match ax with
    | ⟨0, _⟩ => exact lhs_mm1_0 _ _
    | ⟨1, _⟩ => exact (lhs_mm1_1 _ _).trans hk)
  have er : dot_S512x2048_S512x2048_S512x512_1_1_0_0_n_n.rhsIdx (ix2 a b) ((contrEquiv1 dot_S512x2048_S512x2048_S512x512_1_1_0_0_n_n 2048 rfl rfl).symm k) = ix2 b k := funext fun ax => Fin.ext (by
    match ax with
    | ⟨0, _⟩ => exact rhs_mm1_0 _ _
    | ⟨1, _⟩ => exact (rhs_mm1_1 _ _).trans hk)
  rw [el, er]

/-! ## The [1,2048] × [512,2048] → [1,512] product contracting the last axis of both operands -/

/-- The left operand's row is the output's row. -/
theorem lhs_mm2_0 (i : S1x512.Idx) (q : dot_S1x2048_S512x2048_S1x512_1_1_0_0_n_n.contr.Idx) :
    (dot_S1x2048_S512x2048_S1x512_1_1_0_0_n_n.lhsIdx i q 0).val = (i 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl
/-- The left operand's column is the contraction position. -/
theorem lhs_mm2_1 (i : S1x512.Idx) (q : dot_S1x2048_S512x2048_S1x512_1_1_0_0_n_n.contr.Idx) :
    (dot_S1x2048_S512x2048_S1x512_1_1_0_0_n_n.lhsIdx i q 1).val = (q ⟨0, by decide⟩).val :=
  dot_S1x2048_S512x2048_S1x512_1_1_0_0_n_n.lhsIdx_val_of_single rfl i q
/-- The right operand's row is the output's column. -/
theorem rhs_mm2_0 (i : S1x512.Idx) (q : dot_S1x2048_S512x2048_S1x512_1_1_0_0_n_n.contr.Idx) :
    (dot_S1x2048_S512x2048_S1x512_1_1_0_0_n_n.rhsIdx i q 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
/-- The right operand's column is the contraction position. -/
theorem rhs_mm2_1 (i : S1x512.Idx) (q : dot_S1x2048_S512x2048_S1x512_1_1_0_0_n_n.contr.Idx) :
    (dot_S1x2048_S512x2048_S1x512_1_1_0_0_n_n.rhsIdx i q 1).val = (q ⟨0, by decide⟩).val :=
  dot_S1x2048_S512x2048_S1x512_1_1_0_0_n_n.rhsIdx_val_of_single rfl i q

/-- Entry (c, b) of the product into the zero accumulator is Σₖ l (c, k) · r (b, k). -/
theorem mm2_apply (l : FVec Ideal S1x2048 .bf16) (r : FVec Ideal S512x2048 .bf16) (c : Fin 1) (b : Fin 512) :
    matmul dot_S1x2048_S512x2048_S1x512_1_1_0_0_n_n none l r (constant (F := Ideal) S1x512 .f32 0x00000000#32) (ix2 c b)
      = ∑ k : Fin 2048, l (ix2 c k) * r (ix2 b k) := by
  simp only [matmul]
  rw [Ideal.matmul_constant_zero_apply, ← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx (ix2 c b) ((contrEquiv1 dot_S1x2048_S512x2048_S1x512_1_1_0_0_n_n 2048 rfl rfl).symm k) = ix2 c k := funext fun ax => Fin.ext (by
    match ax with
    | ⟨0, _⟩ => exact lhs_mm2_0 _ _
    | ⟨1, _⟩ => exact (lhs_mm2_1 _ _).trans hk)
  have er : dot_S1x2048_S512x2048_S1x512_1_1_0_0_n_n.rhsIdx (ix2 c b) ((contrEquiv1 dot_S1x2048_S512x2048_S1x512_1_1_0_0_n_n 2048 rfl rfl).symm k) = ix2 b k := funext fun ax => Fin.ext (by
    match ax with
    | ⟨0, _⟩ => exact rhs_mm2_0 _ _
    | ⟨1, _⟩ => exact (rhs_mm2_1 _ _).trans hk)
  rw [el, er]

/-! ## A bias row cast to its own shape and broadcast over the 512 rows -/

/-- Entry (a, b) of a [1,512] row broadcast to [512,512] is the row at b. -/
theorem row_apply (v : Vec Ideal S1x512 .f32) (a b : Fin 512) :
    broadcastTo S512x512 v broadcasts_S1x512_S512x512 (ix2 a b) = v (ix2 0 b) :=
  broadcastTo_1b_ab_apply v broadcasts_S1x512_S512x512 a b

/-! ## The payloads at an entry -/

/-- The pre-activation of the z tile at (a, b). -/
theorem pay5_apply (v0 : Vec Ideal S512x2048 .bf16) (v2 : Vec Ideal S1x2048 .bf16) (v4 v8 : Vec Ideal S512x2048 .bf16)
    (v13 v20 v24 : Vec Ideal S1x512 .f32) (a b : Fin 512) :
    k0_pay5 v0 v2 v4 v8 v13 v20 v24 (ix2 a b)
      = ((((∑ k : Fin 2048, v0 (ix2 a k) * v4 (ix2 b k)) + v13 (ix2 0 b)) + (∑ k : Fin 2048, v2 (ix2 0 k) * v8 (ix2 b k))) + v20 (ix2 0 b)) + v24 (ix2 0 b) := by
  unfold k0_pay5 k0_pay3 k0_pay4
  simp only [shapeCast_self, addf_apply, broadcastTo_1b_ab_apply, mm1_apply, mm2_apply]

/-- The x·Wrᵀ + bwr part of the r tile at (a, b). -/
theorem pay6_apply (v0 v6 : Vec Ideal S512x2048 .bf16) (v28 : Vec Ideal S1x512 .f32) (a b : Fin 512) :
    k0_pay6 v0 v6 v28 (ix2 a b) = (∑ k : Fin 2048, v0 (ix2 a k) * v6 (ix2 b k)) + v28 (ix2 0 b) := by
  unfold k0_pay6 k0_pay3
  simp only [shapeCast_self, addf_apply, broadcastTo_1b_ab_apply, mm1_apply]

/-- The h·Urᵀ part of the r tile at (a, b). -/
theorem pay7_apply (v2 : Vec Ideal S1x2048 .bf16) (v10 : Vec Ideal S512x2048 .bf16) (a b : Fin 512) :
    k0_pay7 v2 v10 (ix2 a b) = ∑ k : Fin 2048, v2 (ix2 0 k) * v10 (ix2 b k) := by
  unfold k0_pay7 k0_pay4
  simp only [shapeCast_self, broadcastTo_1b_ab_apply, mm2_apply]

theorem zblk_apply (x wz uz : Vec Ideal S512x2048 .bf16) (h : Vec Ideal S1x2048 .bf16) (bwz buz bz : Vec Ideal S1x512 .f32) (a b : Fin 512) :
    zblk x wz uz h bwz buz bz (ix2 a b)
      = Ideal.logistic (((((∑ k : Fin 2048, x (ix2 a k) * wz (ix2 b k)) + bwz (ix2 0 b)) + (∑ k : Fin 2048, h (ix2 0 k) * uz (ix2 b k))) + buz (ix2 0 b)) + bz (ix2 0 b)) := by
  unfold zblk
  rw [View.canon_unit_zero hz2]
  simp only [View.ld_unit_zero (S := S512x2048) hz2, View.ld_unit_zero (S := S1x2048) hz2, View.ld_unit_zero (S := S1x512) hz2]
  exact congrArg Ideal.logistic (pay5_apply x h wz uz bwz buz bz a b)

theorem rblk_apply (x wr ur : Vec Ideal S512x2048 .bf16) (h : Vec Ideal S1x2048 .bf16) (bwr bur br : Vec Ideal S1x512 .f32) (a b : Fin 512) :
    rblk x wr ur h bwr bur br (ix2 a b)
      = Ideal.logistic (((((∑ k : Fin 2048, x (ix2 a k) * wr (ix2 b k)) + bwr (ix2 0 b)) + (∑ k : Fin 2048, h (ix2 0 k) * ur (ix2 b k))) + bur (ix2 0 b)) + br (ix2 0 b)) := by
  unfold rblk
  rw [View.canon_unit_zero hz2]
  simp only [View.ld_unit_zero (S := S512x2048) hz2, View.ld_unit_zero (S := S1x2048) hz2, View.ld_unit_zero (S := S1x512) hz2]
  unfold k0_pay2
  simp only [shapeCast_self]
  show Ideal.logistic ((((k0_pay6 x wr bwr (ix2 a b) + k0_pay7 h ur (ix2 a b))
      + broadcastTo S512x512 bur broadcasts_S1x512_S512x512 (ix2 a b))
      + broadcastTo S512x512 br broadcasts_S1x512_S512x512 (ix2 a b))) = _
  rw [pay6_apply, pay7_apply, row_apply, row_apply]

end Cert.KernelIdeal.Hand

end
-- ==== Proof.KI.Value0.lean ====
/- What region 0 leaves in its two output arrays, over the extended reals: grid point (i, j) writes tile (i, j) of z and
   of r, the 32 tiles cover both 4096x2048 arrays, and entry (p, q) of each is the gate function of row p of x, row q
   of the two weight matrices, h and column q of the three bias rows, all read off the entry contents V. -/
import proofs.«123994_j5050881540410_1_alg».proof.Proof.KI.Data0
import proofs.«123994_j5050881540410_1_alg».proof.Proof.KI.Pay0
import proofs.«123994_j5050881540410_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## Where each window's block sits at a grid point

The grid is 8 x 4 and point t has coordinates (t / 4, t % 4). The block of x is row block t / 4; the blocks of the four
weight matrices are row block t % 4; h is read whole; the blocks of the six bias rows are column block t % 4; the tiles
of z and r are tile (t / 4, t % 4). -/

theorem index_x : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)

theorem index_wz : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)

theorem index_wr : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)

theorem index_uz : ∀ t : Fin cfg0.N, win0_3.index t (0 : Fin 2) = t.val % 4 ∧ win0_3.index t (1 : Fin 2) = 0 :=
  (by decide +kernel : ∀ t : Fin grid0.N, win0_3.index t (0 : Fin 2) = t.val % 4 ∧ win0_3.index t (1 : Fin 2) = 0)

theorem index_ur : ∀ t : Fin cfg0.N, win0_4.index t (0 : Fin 2) = t.val % 4 ∧ win0_4.index t (1 : Fin 2) = 0 :=
  (by decide +kernel : ∀ t : Fin grid0.N, win0_4.index t (0 : Fin 2) = t.val % 4 ∧ win0_4.index t (1 : Fin 2) = 0)

theorem index_h : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index_bwz : ∀ t : Fin cfg0.N, win0_6.index t (0 : Fin 2) = 0 ∧ win0_6.index t (1 : Fin 2) = t.val % 4 :=
  (by decide +kernel : ∀ t : Fin grid0.N, win0_6.index t (0 : Fin 2) = 0 ∧ win0_6.index t (1 : Fin 2) = t.val % 4)

theorem index_buz : ∀ t : Fin cfg0.N, win0_7.index t (0 : Fin 2) = 0 ∧ win0_7.index t (1 : Fin 2) = t.val % 4 :=
  (by decide +kernel : ∀ t : Fin grid0.N, win0_7.index t (0 : Fin 2) = 0 ∧ win0_7.index t (1 : Fin 2) = t.val % 4)

theorem index_bwr : ∀ t : Fin cfg0.N, win0_8.index t (0 : Fin 2) = 0 ∧ win0_8.index t (1 : Fin 2) = t.val % 4 :=
  (by decide +kernel : ∀ t : Fin grid0.N, win0_8.index t (0 : Fin 2) = 0 ∧ win0_8.index t (1 : Fin 2) = t.val % 4)

theorem index_bur : ∀ t : Fin cfg0.N, win0_9.index t (0 : Fin 2) = 0 ∧ win0_9.index t (1 : Fin 2) = t.val % 4 :=
  (by decide +kernel : ∀ t : Fin grid0.N, win0_9.index t (0 : Fin 2) = 0 ∧ win0_9.index t (1 : Fin 2) = t.val % 4)

theorem index_bz : ∀ t : Fin cfg0.N, win0_10.index t (0 : Fin 2) = 0 ∧ win0_10.index t (1 : Fin 2) = t.val % 4 :=
  (by decide +kernel : ∀ t : Fin grid0.N, win0_10.index t (0 : Fin 2) = 0 ∧ win0_10.index t (1 : Fin 2) = t.val % 4)

theorem index_br : ∀ t : Fin cfg0.N, win0_11.index t (0 : Fin 2) = 0 ∧ win0_11.index t (1 : Fin 2) = t.val % 4 :=
  (by decide +kernel : ∀ t : Fin grid0.N, win0_11.index t (0 : Fin 2) = 0 ∧ win0_11.index t (1 : Fin 2) = t.val % 4)

theorem index_z : ∀ t : Fin cfg0.N, win0_12.index t (0 : Fin 2) = t.val / 4 ∧ win0_12.index t (1 : Fin 2) = t.val % 4 :=
  (by decide +kernel : ∀ t : Fin grid0.N, win0_12.index t (0 : Fin 2) = t.val / 4 ∧ win0_12.index t (1 : Fin 2) = t.val % 4)

theorem index_r : ∀ t : Fin cfg0.N, win0_13.index t (0 : Fin 2) = t.val / 4 ∧ win0_13.index t (1 : Fin 2) = t.val % 4 :=
  (by decide +kernel : ∀ t : Fin grid0.N, win0_13.index t (0 : Fin 2) = t.val / 4 ∧ win0_13.index t (1 : Fin 2) = t.val % 4)

/-- Every tile position (i, j) of the 8 x 4 tiling is some point's, for z and for r. -/
theorem tile_onto_z : ∀ (q0 : Fin 8) (q1 : Fin 4), ∃ t : Fin cfg0.N, win0_12.index t = ![q0.val, q1.val] :=
  (by decide +kernel : ∀ (q0 : Fin 8) (q1 : Fin 4), ∃ t : Fin grid0.N, win0_12.index t = ![q0.val, q1.val])

theorem tile_onto_r : ∀ (q0 : Fin 8) (q1 : Fin 4), ∃ t : Fin cfg0.N, win0_13.index t = ![q0.val, q1.val] :=
  (by decide +kernel : ∀ (q0 : Fin 8) (q1 : Fin 4), ∃ t : Fin grid0.N, win0_13.index t = ![q0.val, q1.val])

/-! ## The blocks, read where they sit in their arrays

A block's entry sits in its array, on each axis, at block index x block size + its own coordinate. -/

/-- Entry (a, k) of the block of x at point t is entry (512 (t / 4) + a, k) of x. -/
theorem x_block (c : Dev nD) (t : Fin cfg0.N) (a : Fin 512) (k : Fin 2048) (p : Fin 4096)
    (hp : p.val = t.val / 4 * 512 + a.val) :
    iblk0 V c 0 t (ix2 a k) = V c main_v0 (ix2 p k) := by
  show V c main_v0 (((cfg0.win 0).blk t).view.emb (ix2 a k)) = V c main_v0 (ix2 p k)
  refine congrArg _ ?_
  funext d; apply Fin.ext
  obtain ⟨e0, e1⟩ := index_x t
  match d with
  | ⟨0, _⟩ => show win0_0.index t (0 : Fin 2) * 512 + 1 * a.val = p.val; omega
  | ⟨1, _⟩ => show win0_0.index t (1 : Fin 2) * 2048 + 1 * k.val = k.val; omega

/-- Entry (b, k) of the block of Wz at point t is entry (512 (t % 4) + b, k) of Wz; likewise Wr, Uz, Ur. -/
theorem wz_block (c : Dev nD) (t : Fin cfg0.N) (b : Fin 512) (k : Fin 2048) (q : Fin 2048)
    (hq : q.val = t.val % 4 * 512 + b.val) :
    iblk0 V c 1 t (ix2 b k) = V c main_v2 (ix2 q k) := by
  show V c main_v2 (((cfg0.win 1).blk t).view.emb (ix2 b k)) = V c main_v2 (ix2 q k)
  refine congrArg _ ?_
  funext d; apply Fin.ext
  obtain ⟨e0, e1⟩ := index_wz t
  match d with
  | ⟨0, _⟩ => show win0_1.index t (0 : Fin 2) * 512 + 1 * b.val = q.val; omega
  | ⟨1, _⟩ => show win0_1.index t (1 : Fin 2) * 2048 + 1 * k.val = k.val; omega

theorem wr_block (c : Dev nD) (t : Fin cfg0.N) (b : Fin 512) (k : Fin 2048) (q : Fin 2048)
    (hq : q.val = t.val % 4 * 512 + b.val) :
    iblk0 V c 2 t (ix2 b k) = V c main_v3 (ix2 q k) := by
  show V c main_v3 (((cfg0.win 2).blk t).view.emb (ix2 b k)) = V c main_v3 (ix2 q k)
  refine congrArg _ ?_
  funext d; apply Fin.ext
  obtain ⟨e0, e1⟩ := index_wr t
  match d with
  | ⟨0, _⟩ => show win0_2.index t (0 : Fin 2) * 512 + 1 * b.val = q.val; omega
  | ⟨1, _⟩ => show win0_2.index t (1 : Fin 2) * 2048 + 1 * k.val = k.val; omega

theorem uz_block (c : Dev nD) (t : Fin cfg0.N) (b : Fin 512) (k : Fin 2048) (q : Fin 2048)
    (hq : q.val = t.val % 4 * 512 + b.val) :
    iblk0 V c 3 t (ix2 b k) = V c main_v5 (ix2 q k) := by
  show V c main_v5 (((cfg0.win 3).blk t).view.emb (ix2 b k)) = V c main_v5 (ix2 q k)
  refine congrArg _ ?_
  funext d; apply Fin.ext
  obtain ⟨e0, e1⟩ := index_uz t
  match d with
  | ⟨0, _⟩ => show win0_3.index t (0 : Fin 2) * 512 + 1 * b.val = q.val; omega
  | ⟨1, _⟩ => show win0_3.index t (1 : Fin 2) * 2048 + 1 * k.val = k.val; omega

theorem ur_block (c : Dev nD) (t : Fin cfg0.N) (b : Fin 512) (k : Fin 2048) (q : Fin 2048)
    (hq : q.val = t.val % 4 * 512 + b.val) :
    iblk0 V c 4 t (ix2 b k) = V c main_v6 (ix2 q k) := by
  show V c main_v6 (((cfg0.win 4).blk t).view.emb (ix2 b k)) = V c main_v6 (ix2 q k)
  refine congrArg _ ?_
  funext d; apply Fin.ext
  obtain ⟨e0, e1⟩ := index_ur t
  match d with
  | ⟨0, _⟩ => show win0_4.index t (0 : Fin 2) * 512 + 1 * b.val = q.val; omega
  | ⟨1, _⟩ => show win0_4.index t (1 : Fin 2) * 2048 + 1 * k.val = k.val; omega

/-- The block of h at any point is h. -/
theorem h_block (c : Dev nD) (t : Fin cfg0.N) (k : Fin 2048) :
    iblk0 V c 5 t (ix2 0 k) = V c main_v1 (ix2 0 k) := by
  show V c main_v1 (((cfg0.win 5).blk t).view.emb (ix2 0 k)) = V c main_v1 (ix2 0 k)
  refine congrArg _ ?_
  funext d; apply Fin.ext
  obtain ⟨e0, e1⟩ := index_h t
  match d with
  | ⟨0, _⟩ => show win0_5.index t (0 : Fin 2) * 1 + 1 * 0 = 0; omega
  | ⟨1, _⟩ => show win0_5.index t (1 : Fin 2) * 2048 + 1 * k.val = k.val; omega

/-- Entry (0, b) of a bias row's block at point t is entry (0, 512 (t % 4) + b) of the row: the six rows in turn. -/
theorem bwz_block (c : Dev nD) (t : Fin cfg0.N) (b : Fin 512) (q : Fin 2048) (hq : q.val = t.val % 4 * 512 + b.val) :
    iblk0 V c 6 t (ix2 0 b) = V c main_v8 (ix2 0 q) := by
  show V c main_v8 (((cfg0.win 6).blk t).view.emb (ix2 0 b)) = V c main_v8 (ix2 0 q)
  refine congrArg _ ?_
  funext d; apply Fin.ext
  obtain ⟨e0, e1⟩ := index_bwz t
  match d with
  | ⟨0, _⟩ => show win0_6.index t (0 : Fin 2) * 1 + 1 * 0 = 0; omega
  | ⟨1, _⟩ => show win0_6.index t (1 : Fin 2) * 512 + 1 * b.val = q.val; omega

theorem buz_block (c : Dev nD) (t : Fin cfg0.N) (b : Fin 512) (q : Fin 2048) (hq : q.val = t.val % 4 * 512 + b.val) :
    iblk0 V c 7 t (ix2 0 b) = V c main_v9 (ix2 0 q) := by
  show V c main_v9 (((cfg0.win 7).blk t).view.emb (ix2 0 b)) = V c main_v9 (ix2 0 q)
  refine congrArg _ ?_
  funext d; apply Fin.ext
  obtain ⟨e0, e1⟩ := index_buz t
  match d with
  | ⟨0, _⟩ => show win0_7.index t (0 : Fin 2) * 1 + 1 * 0 = 0; omega
  | ⟨1, _⟩ => show win0_7.index t (1 : Fin 2) * 512 + 1 * b.val = q.val; omega

theorem bwr_block (c : Dev nD) (t : Fin cfg0.N) (b : Fin 512) (q : Fin 2048) (hq : q.val = t.val % 4 * 512 + b.val) :
    iblk0 V c 8 t (ix2 0 b) = V c main_v10 (ix2 0 q) := by
  show V c main_v10 (((cfg0.win 8).blk t).view.emb (ix2 0 b)) = V c main_v10 (ix2 0 q)
  refine congrArg _ ?_
  funext d; apply Fin.ext
  obtain ⟨e0, e1⟩ := index_bwr t
  match d with
  | ⟨0, _⟩ => show win0_8.index t (0 : Fin 2) * 1 + 1 * 0 = 0; omega
  | ⟨1, _⟩ => show win0_8.index t (1 : Fin 2) * 512 + 1 * b.val = q.val; omega

theorem bur_block (c : Dev nD) (t : Fin cfg0.N) (b : Fin 512) (q : Fin 2048) (hq : q.val = t.val % 4 * 512 + b.val) :
    iblk0 V c 9 t (ix2 0 b) = V c main_v11 (ix2 0 q) := by
  show V c main_v11 (((cfg0.win 9).blk t).view.emb (ix2 0 b)) = V c main_v11 (ix2 0 q)
  refine congrArg _ ?_
  funext d; apply Fin.ext
  obtain ⟨e0, e1⟩ := index_bur t
  match d with
  | ⟨0, _⟩ => show win0_9.index t (0 : Fin 2) * 1 + 1 * 0 = 0; omega
  | ⟨1, _⟩ => show win0_9.index t (1 : Fin 2) * 512 + 1 * b.val = q.val; omega

theorem bz_block (c : Dev nD) (t : Fin cfg0.N) (b : Fin 512) (q : Fin 2048) (hq : q.val = t.val % 4 * 512 + b.val) :
    iblk0 V c 10 t (ix2 0 b) = V c main_arg14 (ix2 0 q) := by
  show V c main_arg14 (((cfg0.win 10).blk t).view.emb (ix2 0 b)) = V c main_arg14 (ix2 0 q)
  refine congrArg _ ?_
  funext d; apply Fin.ext
  obtain ⟨e0, e1⟩ := index_bz t
  match d with
  | ⟨0, _⟩ => show win0_10.index t (0 : Fin 2) * 1 + 1 * 0 = 0; omega
  | ⟨1, _⟩ => show win0_10.index t (1 : Fin 2) * 512 + 1 * b.val = q.val; omega

theorem br_block (c : Dev nD) (t : Fin cfg0.N) (b : Fin 512) (q : Fin 2048) (hq : q.val = t.val % 4 * 512 + b.val) :
    iblk0 V c 11 t (ix2 0 b) = V c main_arg15 (ix2 0 q) := by
  show V c main_arg15 (((cfg0.win 11).blk t).view.emb (ix2 0 b)) = V c main_arg15 (ix2 0 q)
  refine congrArg _ ?_
  funext d; apply Fin.ext
  obtain ⟨e0, e1⟩ := index_br t
  match d with
  | ⟨0, _⟩ => show win0_11.index t (0 : Fin 2) * 1 + 1 * 0 = 0; omega
  | ⟨1, _⟩ => show win0_11.index t (1 : Fin 2) * 512 + 1 * b.val = q.val; omega

/-! ## A tile entry as the gate at its row and column -/

/-- An entry of the z tile whose block entries are entries of whole matrices and rows is the gate there. -/
theorem zblk_gate (x wz uz : Vec Ideal S512x2048 .bf16) (h : Vec Ideal S1x2048 .bf16) (bwz buz bz : Vec Ideal S1x512 .f32)
    (X : Spec.Mat 4096 2048) (W U : Spec.Mat 2048 2048) (bw H bu bb : Spec.Row 2048)
    (a b : Fin 512) (p : Fin 4096) (q : Fin 2048)
    (hx : ∀ k : Fin 2048, x (ix2 a k) = X p k) (hw : ∀ k : Fin 2048, wz (ix2 b k) = W q k)
    (hu : ∀ k : Fin 2048, uz (ix2 b k) = U q k) (hh : ∀ k : Fin 2048, h (ix2 0 k) = H k)
    (hbw : bwz (ix2 0 b) = bw q) (hbu : buz (ix2 0 b) = bu q) (hb : bz (ix2 0 b) = bb q) :
    zblk x wz uz h bwz buz bz (ix2 a b) = Spec.gate X W bw H U bu bb p q := by
  rw [zblk_apply]
  unfold Spec.gate Spec.lin
  simp only [hx, hw, hu, hh, hbw, hbu, hb]

/-- The same for the r tile. -/
theorem rblk_gate (x wr ur : Vec Ideal S512x2048 .bf16) (h : Vec Ideal S1x2048 .bf16) (bwr bur br : Vec Ideal S1x512 .f32)
    (X : Spec.Mat 4096 2048) (W U : Spec.Mat 2048 2048) (bw H bu bb : Spec.Row 2048)
    (a b : Fin 512) (p : Fin 4096) (q : Fin 2048)
    (hx : ∀ k : Fin 2048, x (ix2 a k) = X p k) (hw : ∀ k : Fin 2048, wr (ix2 b k) = W q k)
    (hu : ∀ k : Fin 2048, ur (ix2 b k) = U q k) (hh : ∀ k : Fin 2048, h (ix2 0 k) = H k)
    (hbw : bwr (ix2 0 b) = bw q) (hbu : bur (ix2 0 b) = bu q) (hb : br (ix2 0 b) = bb q) :
    rblk x wr ur h bwr bur br (ix2 a b) = Spec.gate X W bw H U bu bb p q := by
  rw [rblk_apply]
  unfold Spec.gate Spec.lin
  simp only [hx, hw, hu, hh, hbw, hbu, hb]

/-! ## The two arrays as functions of the entry contents -/

/-- The update gate over the whole 4096x2048 array: entry i is the gate of x, Wz, bwz, h, Uz, buz, b_z at (i 0, i 1). -/
def Gz (c : Dev nD) : S4096x2048.Idx → Elt Ideal .f32 := fun i =>
  Spec.gate (Spec.mat (a := 4096) (b := 2048) (V c main_v0)) (Spec.mat (a := 2048) (b := 2048) (V c main_v2)) (Spec.row (b := 2048) (V c main_v8))
    (Spec.row (b := 2048) (V c main_v1)) (Spec.mat (a := 2048) (b := 2048) (V c main_v5)) (Spec.row (b := 2048) (V c main_v9)) (Spec.row (b := 2048) (V c main_arg14)) (i 0) (i 1)

/-- The reset gate over the whole array: the gate of x, Wr, bwr, h, Ur, bur, b_r. -/
def Gr (c : Dev nD) : S4096x2048.Idx → Elt Ideal .f32 := fun i =>
  Spec.gate (Spec.mat (a := 4096) (b := 2048) (V c main_v0)) (Spec.mat (a := 2048) (b := 2048) (V c main_v3)) (Spec.row (b := 2048) (V c main_v10))
    (Spec.row (b := 2048) (V c main_v1)) (Spec.mat (a := 2048) (b := 2048) (V c main_v6)) (Spec.row (b := 2048) (V c main_v11)) (Spec.row (b := 2048) (V c main_arg15)) (i 0) (i 1)

/-- What point t writes back to z is tile t of Gz. -/
theorem flushed_z (c : Dev nD) (t : Fin cfg0.N) :
    (dat0 V c).flushed 12 t = ((cfg0.win 12).blk t).view.read (Elt Ideal) (Gz V c) := by
  show (cfg0.win 12).cut (grid0.coords t) ((dat0 V c).after 12 t) = _
  rw [after0_12]
  funext j
  obtain ⟨a, b, rfl⟩ : ∃ (a : Fin 512) (b : Fin 512), j = ix2 a b := ⟨j 0, j 1, eq_ix2 j⟩
  obtain ⟨z0, z1⟩ := index_z t
  have hp : ((((cfg0.win 12).blk t).view.emb (ix2 a b)) 0).val = t.val / 4 * 512 + a.val := by
    show win0_12.index t (0 : Fin 2) * 512 + 1 * a.val = _; omega
  have hq : ((((cfg0.win 12).blk t).view.emb (ix2 a b)) 1).val = t.val % 4 * 512 + b.val := by
    show win0_12.index t (1 : Fin 2) * 512 + 1 * b.val = _; omega
  show zblk (iblk0 V c 0 t) (iblk0 V c 1 t) (iblk0 V c 3 t) (iblk0 V c 5 t) (iblk0 V c 6 t) (iblk0 V c 7 t) (iblk0 V c 10 t) (ix2 a b)
    = Spec.gate (Spec.mat (a := 4096) (b := 2048) (V c main_v0)) (Spec.mat (a := 2048) (b := 2048) (V c main_v2)) (Spec.row (b := 2048) (V c main_v8))
        (Spec.row (b := 2048) (V c main_v1)) (Spec.mat (a := 2048) (b := 2048) (V c main_v5)) (Spec.row (b := 2048) (V c main_v9)) (Spec.row (b := 2048) (V c main_arg14))
        ((((cfg0.win 12).blk t).view.emb (ix2 a b)) 0) ((((cfg0.win 12).blk t).view.emb (ix2 a b)) 1)
  exact zblk_gate _ _ _ _ _ _ _ _ _ _ _ _ _ _ a b _ _
    (fun k => x_block V c t a k _ hp) (fun k => wz_block V c t b k _ hq) (fun k => uz_block V c t b k _ hq) (fun k => h_block V c t k)
    (bwz_block V c t b _ hq) (buz_block V c t b _ hq) (bz_block V c t b _ hq)

/-- What point t writes back to r is tile t of Gr. -/
theorem flushed_r (c : Dev nD) (t : Fin cfg0.N) :
    (dat0 V c).flushed 13 t = ((cfg0.win 13).blk t).view.read (Elt Ideal) (Gr V c) := by
  show (cfg0.win 13).cut (grid0.coords t) ((dat0 V c).after 13 t) = _
  rw [after0_13]
  funext j
  obtain ⟨a, b, rfl⟩ : ∃ (a : Fin 512) (b : Fin 512), j = ix2 a b := ⟨j 0, j 1, eq_ix2 j⟩
  obtain ⟨z0, z1⟩ := index_r t
  have hp : ((((cfg0.win 13).blk t).view.emb (ix2 a b)) 0).val = t.val / 4 * 512 + a.val := by
    show win0_13.index t (0 : Fin 2) * 512 + 1 * a.val = _; omega
  have hq : ((((cfg0.win 13).blk t).view.emb (ix2 a b)) 1).val = t.val % 4 * 512 + b.val := by
    show win0_13.index t (1 : Fin 2) * 512 + 1 * b.val = _; omega
  show rblk (iblk0 V c 0 t) (iblk0 V c 2 t) (iblk0 V c 4 t) (iblk0 V c 5 t) (iblk0 V c 8 t) (iblk0 V c 9 t) (iblk0 V c 11 t) (ix2 a b)
    = Spec.gate (Spec.mat (a := 4096) (b := 2048) (V c main_v0)) (Spec.mat (a := 2048) (b := 2048) (V c main_v3)) (Spec.row (b := 2048) (V c main_v10))
        (Spec.row (b := 2048) (V c main_v1)) (Spec.mat (a := 2048) (b := 2048) (V c main_v6)) (Spec.row (b := 2048) (V c main_v11)) (Spec.row (b := 2048) (V c main_arg15))
        ((((cfg0.win 13).blk t).view.emb (ix2 a b)) 0) ((((cfg0.win 13).blk t).view.emb (ix2 a b)) 1)
  exact rblk_gate _ _ _ _ _ _ _ _ _ _ _ _ _ _ a b _ _
    (fun k => x_block V c t a k _ hp) (fun k => wr_block V c t b k _ hq) (fun k => ur_block V c t b k _ hq) (fun k => h_block V c t k)
    (bwr_block V c t b _ hq) (bur_block V c t b _ hq) (br_block V c t b _ hq)

/-! ## The 32 tiles cover each array -/

/-- An index of z is in point t's tile iff each coordinate is in the tile's range on its axis. -/
theorem mem_tile_z (t : Fin cfg0.N) (i : S4096x2048.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v14_0).slice (win0_12.rect t)).set ↔ _
  rw [View.set_slice_whole, Rect.mem_set_unit]
  exact Iff.rfl

theorem mem_tile_r (t : Fin cfg0.N) (i : S4096x2048.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v14_1).slice (win0_13.rect t)).set ↔ _
  rw [View.set_slice_whole, Rect.mem_set_unit]
  exact Iff.rfl

/-- Entry (p, q) of z is in tile (p / 512, q / 512), which some point writes back. -/
theorem cover_z (i : S4096x2048.Idx) :
    ∃ t : Fin cfg0.N, (cfg0.win 12).flush t = true ∧ i ∈ ((cfg0.win 12).blk t).view.set := by
  have hi0 : (i 0).val < 4096 := (i 0).isLt
  have hi1 : (i 1).val < 2048 := (i 1).isLt
  obtain ⟨t, ht⟩ := tile_onto_z ⟨(i 0).val / 512, by omega⟩ ⟨(i 1).val / 512, by omega⟩
  have q0 : win0_12.index t (0 : Fin 2) = (i 0).val / 512 := congrFun ht 0
  have q1 : win0_12.index t (1 : Fin 2) = (i 1).val / 512 := congrFun ht 1
  refine ⟨t, flush0_12 t, ?_⟩
  rw [mem_tile_z]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

theorem cover_r (i : S4096x2048.Idx) :
    ∃ t : Fin cfg0.N, (cfg0.win 13).flush t = true ∧ i ∈ ((cfg0.win 13).blk t).view.set := by
  have hi0 : (i 0).val < 4096 := (i 0).isLt
  have hi1 : (i 1).val < 2048 := (i 1).isLt
  obtain ⟨t, ht⟩ := tile_onto_r ⟨(i 0).val / 512, by omega⟩ ⟨(i 1).val / 512, by omega⟩
  have q0 : win0_13.index t (0 : Fin 2) = (i 0).val / 512 := congrFun ht 0
  have q1 : win0_13.index t (1 : Fin 2) = (i 1).val / 512 := congrFun ht 1
  refine ⟨t, flush0_13 t, ?_⟩
  rw [mem_tile_r]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 512 ≤ (i 1).val ∧ (i 1).val < win0_13.index t (1 : Fin 2) * 512 + 512; omega

/-! ## The arrays after the region -/

/-- z ends holding Gz, r ends holding Gr. -/
theorem array_z (c : Dev nD) : (dat0 V c).arrAt 12 cfg0.N = Gz V c :=
  (dat0 V c).arrAt_eq_of_cover 12 (Gz V c) (fun t _ => flushed_z V c t) cover_z

theorem array_r (c : Dev nD) : (dat0 V c).arrAt 13 cfg0.N = Gr V c :=
  (dat0 V c).arrAt_eq_of_cover 13 (Gr V c) (fun t _ => flushed_r V c t) cover_r

theorem z_final (c : Dev nD) (p : Fin 4096) (q : Fin 2048) :
    Spec.mat (a := 4096) (b := 2048) ((dat0 V c).arrAt 12 cfg0.N) p q
      = Spec.gate (Spec.mat (a := 4096) (b := 2048) (V c main_v0)) (Spec.mat (a := 2048) (b := 2048) (V c main_v2)) (Spec.row (b := 2048) (V c main_v8))
          (Spec.row (b := 2048) (V c main_v1)) (Spec.mat (a := 2048) (b := 2048) (V c main_v5)) (Spec.row (b := 2048) (V c main_v9)) (Spec.row (b := 2048) (V c main_arg14)) p q := by
  show (dat0 V c).arrAt 12 cfg0.N (ix2 p q) = _
  rw [array_z]
  rfl

theorem r_final (c : Dev nD) (p : Fin 4096) (q : Fin 2048) :
    Spec.mat (a := 4096) (b := 2048) ((dat0 V c).arrAt 13 cfg0.N) p q
      = Spec.gate (Spec.mat (a := 4096) (b := 2048) (V c main_v0)) (Spec.mat (a := 2048) (b := 2048) (V c main_v3)) (Spec.row (b := 2048) (V c main_v10))
          (Spec.row (b := 2048) (V c main_v1)) (Spec.mat (a := 2048) (b := 2048) (V c main_v6)) (Spec.row (b := 2048) (V c main_v11)) (Spec.row (b := 2048) (V c main_arg15)) p q := by
  show (dat0 V c).arrAt 13 cfg0.N (ix2 p q) = _
  rw [array_r]
  rfl

end Cert.KernelIdeal.Hand

end
-- ==== Proof.KI.Pay1.lean ====
/- The result tile of region 1 read at an entry, over the extended reals: entry (a, b) is
   (1 − z a b) · h b + z a b · tanh (((((Σₖ x a k · Wh b k) + bwh b) + (Σₖ (r a k · h k) · Uh b k)) + buh b) + b_h b). -/
import proofs.«123994_j5050881540410_1_alg».proof.Proof.KI.Data1
import proofs.«123994_j5050881540410_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The zero offsets of a whole-tile rectangle, as the constant function. -/
theorem hz_r1 : (![0, 0] : Fin 2 → Nat) = fun _ => 0 := funext fun a => by fin_cases a <;> rfl

/-! ## The product contracting the last axis of both operands -/

/-- The left operand's row is the result's row … -/
theorem lhs_mmc_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- … its column the contraction index; … -/
theorem lhs_mmc_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- … the right operand's row is the result's column … -/
theorem rhs_mmc_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- … and its column the contraction index. -/
theorem rhs_mmc_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (a, b) of the product into a zero accumulator is Σₖ l (a, k) · r (b, k). -/
theorem mmc_apply (l r : FVec Ideal S512x2048 .bf16) (a b : Fin 512) :
    matmul dot_S512x2048_S512x2048_S512x512_1_1_0_0_n_n none l r (constant (F := Ideal) S512x512 .f32 0x00000000#32) (ix2 a b)
      = ∑ k : Fin 2048, l (ix2 a k) * r (ix2 b k) := by
  refine (Ideal.matmul_constant_zero_apply dot_S512x2048_S512x2048_S512x512_1_1_0_0_n_n none l r (ix2 a b)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 a b) ((contrEquiv1 dot_S512x2048_S512x2048_S512x512_1_1_0_0_n_n 2048 rfl rfl).symm k) = ix2 a k := funext fun ax => Fin.ext (by
    match ax with
    | ⟨0, _⟩ => exact lhs_mmc_0 _ _
    | ⟨1, _⟩ => exact (lhs_mmc_1 _ _).trans hk)
  have er : dot_S512x2048_S512x2048_S512x512_1_1_0_0_n_n.rhsIdx (ix2 a b) ((contrEquiv1 dot_S512x2048_S512x2048_S512x512_1_1_0_0_n_n 2048 rfl rfl).symm k) = ix2 b k := funext fun ax => Fin.ext (by
    match ax with
    | ⟨0, _⟩ => exact rhs_mmc_0 _ _
    | ⟨1, _⟩ => exact (rhs_mmc_1 _ _).trans hk)
  rw [el, er]

/-! ## The payloads at an entry -/

/-- A cast to the same shape is the identity. -/
theorem k1_pay2_eq (z : Vec Ideal S512x512 .f32) : k1_pay2 (F := Ideal) z = z := by
  unfold k1_pay2
  exact shapeCast_self z _

/-- The old state's share: (1 − z a b) · h b. -/
theorem k1_pay3_apply (ht : Vec Ideal S1x512 .f32) (z : Vec Ideal S512x512 .f32) (a b : Fin 512) :
    k1_pay3 (F := Ideal) ht z (ix2 a b) = (Spec.one - z (ix2 a b)) * ht (ix2 0 b) := by
  unfold k1_pay3
  rw [k1_pay2_eq]
  show (Spec.one - z (ix2 a b)) * broadcastTo S512x512 ht broadcasts_S1x512_S512x512 (ix2 a b) = _
  rw [broadcastTo_1b_ab_apply]

/-- The candidate's share: z a b · tanh of the pre-activation, added in the kernel's order. -/
theorem k1_pay4_apply (x wh uh : Vec Ideal S512x2048 .bf16) (r : Vec Ideal S512x2048 .f32) (hf : Vec Ideal S1x2048 .f32)
    (z : Vec Ideal S512x512 .f32) (bwh buh bh : Vec Ideal S1x512 .f32) (a b : Fin 512) :
    k1_pay4 (F := Ideal) x wh uh r hf z bwh buh bh (ix2 a b)
      = z (ix2 a b) * Ideal.tanh (((((∑ k : Fin 2048, x (ix2 a k) * wh (ix2 b k)) + bwh (ix2 0 b))
          + (∑ k : Fin 2048, (r (ix2 a k) * hf (ix2 0 k)) * uh (ix2 b k))) + buh (ix2 0 b)) + bh (ix2 0 b)) := by
  unfold k1_pay4
  rw [k1_pay2_eq]
  simp only [shapeCast_self]
  show z (ix2 a b) * Ideal.tanh
      ((((matmul dot_S512x2048_S512x2048_S512x512_1_1_0_0_n_n none x wh (constant (F := Ideal) S512x512 .f32 0x00000000#32) (ix2 a b)
            + broadcastTo S512x512 bwh broadcasts_S1x512_S512x512 (ix2 a b))
          + matmul dot_S512x2048_S512x2048_S512x512_1_1_0_0_n_n none (fun j : S512x2048.Idx => r j * broadcastTo S512x2048 hf broadcasts_S1x2048_S512x2048 j) uh
              (constant (F := Ideal) S512x512 .f32 0x00000000#32) (ix2 a b))
        + broadcastTo S512x512 buh broadcasts_S1x512_S512x512 (ix2 a b))
      + broadcastTo S512x512 bh broadcasts_S1x512_S512x512 (ix2 a b)) = _
  rw [mmc_apply, mmc_apply]
  simp only [broadcastTo_1b_ab_apply]

theorem oblk_apply (x wh uh : Vec Ideal S512x2048 .bf16) (r : Vec Ideal S512x2048 .f32) (hf : Vec Ideal S1x2048 .f32) (ht : Vec Ideal S1x512 .f32)
    (z : Vec Ideal S512x512 .f32) (bwh buh bh : Vec Ideal S1x512 .f32) (a b : Fin 512) :
    oblk x wh uh r hf ht z bwh buh bh (ix2 a b)
      = (Spec.one - z (ix2 a b)) * ht (ix2 0 b) + z (ix2 a b) * Ideal.tanh (((((∑ k : Fin 2048, x (ix2 a k) * wh (ix2 b k)) + bwh (ix2 0 b))
          + (∑ k : Fin 2048, (r (ix2 a k) * hf (ix2 0 k)) * uh (ix2 b k))) + buh (ix2 0 b)) + bh (ix2 0 b)) := by
  unfold oblk
  rw [View.canon_unit_zero hz_r1]
  simp only [View.ld_unit_zero (S := S512x2048) hz_r1, View.ld_unit_zero (S := S1x2048) hz_r1, View.ld_unit_zero (S := S1x512) hz_r1,
    View.ld_unit_zero (S := S512x512) hz_r1]
  unfold k1_pay1
  show k1_pay3 (F := Ideal) ht z (ix2 a b) + k1_pay4 (F := Ideal) x wh uh r hf z bwh buh bh (ix2 a b) = _
  rw [k1_pay3_apply, k1_pay4_apply]

end Cert.KernelIdeal.Hand

end
-- ==== Proof.KI.Value1.lean ====
/- What region 1 leaves in its output array, over the extended reals: grid point (i, j) writes tile (i, j), the 32 tiles
   cover the 4096x2048 array, and entry (p, q) is the blend of h and the candidate state, from row p of x and of r,
   row q of the two weight matrices, h, entry (p, q) of z and column q of the three bias rows, all read off the entry
   contents V. -/
import proofs.«123994_j5050881540410_1_alg».proof.Proof.KI.Data1
import proofs.«123994_j5050881540410_1_alg».proof.Proof.KI.Pay1
import proofs.«123994_j5050881540410_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The block index of each window at a grid point

The grid is 8 x 4 and point t has coordinates (t / 4, t % 4). The result's tile at t is (t / 4, t % 4); the row blocks
of x and r follow its first coordinate, the row blocks of the two weight matrices and the column blocks of h and of the
three bias rows follow its second, z moves with it, and the whole row of h stays at (0, 0). Decided over the 32 points. -/

/-- The result's tile index stays in the 8 x 4 box. -/
theorem tile_box : ∀ t : Fin cfg1.N, win1_10.index t (0 : Fin 2) ≤ 7 ∧ win1_10.index t (1 : Fin 2) ≤ 3 :=
  (by decide +kernel : ∀ t : Fin grid1.N, win1_10.index t (0 : Fin 2) ≤ 7 ∧ win1_10.index t (1 : Fin 2) ≤ 3)

/-- Every tile of the box is some point's. -/
theorem tile_onto : ∀ (i : Fin 8) (j : Fin 4), ∃ t : Fin cfg1.N, win1_10.index t = ![i.val, j.val] :=
  (by decide +kernel : ∀ (i : Fin 8) (j : Fin 4), ∃ t : Fin grid1.N, win1_10.index t = ![i.val, j.val])

/-- x: row block i, all columns. -/
theorem idx_x : ∀ t : Fin cfg1.N, win1_0.index t (0 : Fin 2) = win1_10.index t (0 : Fin 2) ∧ win1_0.index t (1 : Fin 2) = 0 :=
  (by decide +kernel : ∀ t : Fin grid1.N, win1_0.index t (0 : Fin 2) = win1_10.index t (0 : Fin 2) ∧ win1_0.index t (1 : Fin 2) = 0)

/-- Wh: row block j, all columns. -/
theorem idx_wh : ∀ t : Fin cfg1.N, win1_1.index t (0 : Fin 2) = win1_10.index t (1 : Fin 2) ∧ win1_1.index t (1 : Fin 2) = 0 :=
  (by decide +kernel : ∀ t : Fin grid1.N, win1_1.index t (0 : Fin 2) = win1_10.index t (1 : Fin 2) ∧ win1_1.index t (1 : Fin 2) = 0)

/-- Uh: row block j, all columns. -/
theorem idx_uh : ∀ t : Fin cfg1.N, win1_2.index t (0 : Fin 2) = win1_10.index t (1 : Fin 2) ∧ win1_2.index t (1 : Fin 2) = 0 :=
  (by decide +kernel : ∀ t : Fin grid1.N, win1_2.index t (0 : Fin 2) = win1_10.index t (1 : Fin 2) ∧ win1_2.index t (1 : Fin 2) = 0)

/-- r: row block i, all columns. -/
theorem idx_r : ∀ t : Fin cfg1.N, win1_3.index t (0 : Fin 2) = win1_10.index t (0 : Fin 2) ∧ win1_3.index t (1 : Fin 2) = 0 :=
  (by decide +kernel : ∀ t : Fin grid1.N, win1_3.index t (0 : Fin 2) = win1_10.index t (0 : Fin 2) ∧ win1_3.index t (1 : Fin 2) = 0)

/-- h, the whole row. -/
theorem idx_hf : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- h, column block j. -/
theorem idx_ht : ∀ t : Fin cfg1.N, win1_5.index t (0 : Fin 2) = 0 ∧ win1_5.index t (1 : Fin 2) = win1_10.index t (1 : Fin 2) :=
  (by decide +kernel : ∀ t : Fin grid1.N, win1_5.index t (0 : Fin 2) = 0 ∧ win1_5.index t (1 : Fin 2) = win1_10.index t (1 : Fin 2))

/-- z: tile (i, j). -/
theorem idx_z : ∀ t : Fin cfg1.N, win1_6.index t (0 : Fin 2) = win1_10.index t (0 : Fin 2) ∧ win1_6.index t (1 : Fin 2) = win1_10.index t (1 : Fin 2) :=
  (by decide +kernel : ∀ t : Fin grid1.N, win1_6.index t (0 : Fin 2) = win1_10.index t (0 : Fin 2) ∧ win1_6.index t (1 : Fin 2) = win1_10.index t (1 : Fin 2))

/-- bwh: column block j. -/
theorem idx_bwh : ∀ t : Fin cfg1.N, win1_7.index t (0 : Fin 2) = 0 ∧ win1_7.index t (1 : Fin 2) = win1_10.index t (1 : Fin 2) :=
  (by decide +kernel : ∀ t : Fin grid1.N, win1_7.index t (0 : Fin 2) = 0 ∧ win1_7.index t (1 : Fin 2) = win1_10.index t (1 : Fin 2))

/-- buh: column block j. -/
theorem idx_buh : ∀ t : Fin cfg1.N, win1_8.index t (0 : Fin 2) = 0 ∧ win1_8.index t (1 : Fin 2) = win1_10.index t (1 : Fin 2) :=
  (by decide +kernel : ∀ t : Fin grid1.N, win1_8.index t (0 : Fin 2) = 0 ∧ win1_8.index t (1 : Fin 2) = win1_10.index t (1 : Fin 2))

/-- b_h: column block j. -/
theorem idx_bh : ∀ t : Fin cfg1.N, win1_9.index t (0 : Fin 2) = 0 ∧ win1_9.index t (1 : Fin 2) = win1_10.index t (1 : Fin 2) :=
  (by decide +kernel : ∀ t : Fin grid1.N, win1_9.index t (0 : Fin 2) = 0 ∧ win1_9.index t (1 : Fin 2) = win1_10.index t (1 : Fin 2))

/-! ## Each input block, read where the result's tile says

With (i, j) the tile index at point t, p = 512 i + a and q = 512 j + b: a block's element sits in its array at
block index x block size + its coordinate inside the block. -/

/-- Row a of x's block is row p of x. -/
theorem x_read (c : Dev nD) (t : Fin cfg1.N) (a : Fin 512) (p : Fin 4096)
    (hp : p.val = win1_10.index t (0 : Fin 2) * 512 + a.val) (k : Fin 2048) :
    (iblk1 V c 0 t : Vec Ideal S512x2048 .bf16) (ix2 a k) = V c main_v0 (ix2 p k) := by
  show V c main_v0 (((cfg1.win 0).blk t).view.emb (ix2 a k)) = V c main_v0 (ix2 p k)
  refine congrArg _ (funext fun d => Fin.ext ?_)
  match d with
  | ⟨0, _⟩ => show win1_0.index t (0 : Fin 2) * 512 + 1 * a.val = p.val; rw [(idx_x t).1]; omega
  | ⟨1, _⟩ => show win1_0.index t (1 : Fin 2) * 2048 + 1 * k.val = k.val; rw [(idx_x t).2]; omega

/-- Row b of Wh's block is row q of Wh. -/
theorem wh_read (c : Dev nD) (t : Fin cfg1.N) (b : Fin 512) (q : Fin 2048)
    (hq : q.val = win1_10.index t (1 : Fin 2) * 512 + b.val) (k : Fin 2048) :
    (iblk1 V c 1 t : Vec Ideal S512x2048 .bf16) (ix2 b k) = V c main_v4 (ix2 q k) := by
  show V c main_v4 (((cfg1.win 1).blk t).view.emb (ix2 b k)) = V c main_v4 (ix2 q k)
  refine congrArg _ (funext fun d => Fin.ext ?_)
  match d with
  | ⟨0, _⟩ => show win1_1.index t (0 : Fin 2) * 512 + 1 * b.val = q.val; rw [(idx_wh t).1]; omega
  | ⟨1, _⟩ => show win1_1.index t (1 : Fin 2) * 2048 + 1 * k.val = k.val; rw [(idx_wh t).2]; omega

/-- Row b of Uh's block is row q of Uh. -/
theorem uh_read (c : Dev nD) (t : Fin cfg1.N) (b : Fin 512) (q : Fin 2048)
    (hq : q.val = win1_10.index t (1 : Fin 2) * 512 + b.val) (k : Fin 2048) :
    (iblk1 V c 2 t : Vec Ideal S512x2048 .bf16) (ix2 b k) = V c main_v7 (ix2 q k) := by
  show V c main_v7 (((cfg1.win 2).blk t).view.emb (ix2 b k)) = V c main_v7 (ix2 q k)
  refine congrArg _ (funext fun d => Fin.ext ?_)
  match d with
  | ⟨0, _⟩ => show win1_2.index t (0 : Fin 2) * 512 + 1 * b.val = q.val; rw [(idx_uh t).1]; omega
  | ⟨1, _⟩ => show win1_2.index t (1 : Fin 2) * 2048 + 1 * k.val = k.val; rw [(idx_uh t).2]; omega

/-- Row a of r's block is row p of r. -/
theorem r_read (c : Dev nD) (t : Fin cfg1.N) (a : Fin 512) (p : Fin 4096)
    (hp : p.val = win1_10.index t (0 : Fin 2) * 512 + a.val) (k : Fin 2048) :
    (iblk1 V c 3 t : Vec Ideal S512x2048 .f32) (ix2 a k) = V c main_v14_1 (ix2 p k) := by
  show V c main_v14_1 (((cfg1.win 3).blk t).view.emb (ix2 a k)) = V c main_v14_1 (ix2 p k)
  refine congrArg _ (funext fun d => Fin.ext ?_)
  match d with
  | ⟨0, _⟩ => show win1_3.index t (0 : Fin 2) * 512 + 1 * a.val = p.val; rw [(idx_r t).1]; omega
  | ⟨1, _⟩ => show win1_3.index t (1 : Fin 2) * 2048 + 1 * k.val = k.val; rw [(idx_r t).2]; omega

/-- The whole-row block of h is h. -/
theorem hf_read (c : Dev nD) (t : Fin cfg1.N) (o : Fin 1) (k : Fin 2048) :
    (iblk1 V c 4 t : Vec Ideal S1x2048 .f32) (ix2 o k) = V c main_arg1 (ix2 o k) := by
  show V c main_arg1 (((cfg1.win 4).blk t).view.emb (ix2 o k)) = V c main_arg1 (ix2 o k)
  refine congrArg _ (funext fun d => Fin.ext ?_)
  match d with
  | ⟨0, _⟩ => show win1_4.index t (0 : Fin 2) * 1 + 1 * o.val = o.val; rw [(idx_hf t).1]; omega
  | ⟨1, _⟩ => show win1_4.index t (1 : Fin 2) * 2048 + 1 * k.val = k.val; rw [(idx_hf t).2]; omega

/-- Column b of h's column block is column q of h. -/
theorem ht_read (c : Dev nD) (t : Fin cfg1.N) (o : Fin 1) (b : Fin 512) (q : Fin 2048)
    (hq : q.val = win1_10.index t (1 : Fin 2) * 512 + b.val) :
    (iblk1 V c 5 t : Vec Ideal S1x512 .f32) (ix2 o b) = V c main_arg1 (ix2 o q) := by
  show V c main_arg1 (((cfg1.win 5).blk t).view.emb (ix2 o b)) = V c main_arg1 (ix2 o q)
  refine congrArg _ (funext fun d => Fin.ext ?_)
  match d with
  | ⟨0, _⟩ => show win1_5.index t (0 : Fin 2) * 1 + 1 * o.val = o.val; rw [(idx_ht t).1]; omega
  | ⟨1, _⟩ => show win1_5.index t (1 : Fin 2) * 512 + 1 * b.val = q.val; rw [(idx_ht t).2]; omega

/-- Entry (a, b) of z's tile is entry (p, q) of z. -/
theorem z_read (c : Dev nD) (t : Fin cfg1.N) (a b : Fin 512) (p : Fin 4096) (q : Fin 2048)
    (hp : p.val = win1_10.index t (0 : Fin 2) * 512 + a.val) (hq : q.val = win1_10.index t (1 : Fin 2) * 512 + b.val) :
    (iblk1 V c 6 t : Vec Ideal S512x512 .f32) (ix2 a b) = V c main_v14_0 (ix2 p q) := by
  show V c main_v14_0 (((cfg1.win 6).blk t).view.emb (ix2 a b)) = V c main_v14_0 (ix2 p q)
  refine congrArg _ (funext fun d => Fin.ext ?_)
  match d with
  | ⟨0, _⟩ => show win1_6.index t (0 : Fin 2) * 512 + 1 * a.val = p.val; rw [(idx_z t).1]; omega
  | ⟨1, _⟩ => show win1_6.index t (1 : Fin 2) * 512 + 1 * b.val = q.val; rw [(idx_z t).2]; omega

/-- Column b of bwh's block is column q of bwh. -/
theorem bwh_read (c : Dev nD) (t : Fin cfg1.N) (o : Fin 1) (b : Fin 512) (q : Fin 2048)
    (hq : q.val = win1_10.index t (1 : Fin 2) * 512 + b.val) :
    (iblk1 V c 7 t : Vec Ideal S1x512 .f32) (ix2 o b) = V c main_v12 (ix2 o q) := by
  show V c main_v12 (((cfg1.win 7).blk t).view.emb (ix2 o b)) = V c main_v12 (ix2 o q)
  refine congrArg _ (funext fun d => Fin.ext ?_)
  match d with
  | ⟨0, _⟩ => show win1_7.index t (0 : Fin 2) * 1 + 1 * o.val = o.val; rw [(idx_bwh t).1]; omega
  | ⟨1, _⟩ => show win1_7.index t (1 : Fin 2) * 512 + 1 * b.val = q.val; rw [(idx_bwh t).2]; omega

/-- Column b of buh's block is column q of buh. -/
theorem buh_read (c : Dev nD) (t : Fin cfg1.N) (o : Fin 1) (b : Fin 512) (q : Fin 2048)
    (hq : q.val = win1_10.index t (1 : Fin 2) * 512 + b.val) :
    (iblk1 V c 8 t : Vec Ideal S1x512 .f32) (ix2 o b) = V c main_v13 (ix2 o q) := by
  show V c main_v13 (((cfg1.win 8).blk t).view.emb (ix2 o b)) = V c main_v13 (ix2 o q)
  refine congrArg _ (funext fun d => Fin.ext ?_)
  match d with
  | ⟨0, _⟩ => show win1_8.index t (0 : Fin 2) * 1 + 1 * o.val = o.val; rw [(idx_buh t).1]; omega
  | ⟨1, _⟩ => show win1_8.index t (1 : Fin 2) * 512 + 1 * b.val = q.val; rw [(idx_buh t).2]; omega

/-- Column b of b_h's block is column q of b_h. -/
theorem bh_read (c : Dev nD) (t : Fin cfg1.N) (o : Fin 1) (b : Fin 512) (q : Fin 2048)
    (hq : q.val = win1_10.index t (1 : Fin 2) * 512 + b.val) :
    (iblk1 V c 9 t : Vec Ideal S1x512 .f32) (ix2 o b) = V c main_arg16 (ix2 o q) := by
  show V c main_arg16 (((cfg1.win 9).blk t).view.emb (ix2 o b)) = V c main_arg16 (ix2 o q)
  refine congrArg _ (funext fun d => Fin.ext ?_)
  match d with
  | ⟨0, _⟩ => show win1_9.index t (0 : Fin 2) * 1 + 1 * o.val = o.val; rw [(idx_bh t).1]; omega
  | ⟨1, _⟩ => show win1_9.index t (1 : Fin 2) * 512 + 1 * b.val = q.val; rw [(idx_bh t).2]; omega

/-! ## The whole array, and what a point writes back -/

/-- The array the region leaves: entry (p, q) is the blend at (p, q) of the arrays the region finds. -/
def blendArr (c : Dev nD) : S4096x2048.Idx → Elt Ideal .f32 := fun i =>
  Spec.blend (Spec.mat (a := 4096) (b := 2048) (V c main_v0)) (Spec.mat (a := 2048) (b := 2048) (V c main_v4)) (Spec.row (b := 2048) (V c main_v12))
    (Spec.mat (a := 4096) (b := 2048) (V c main_v14_1)) (Spec.row (b := 2048) (V c main_arg1)) (Spec.mat (a := 2048) (b := 2048) (V c main_v7))
    (Spec.row (b := 2048) (V c main_v13)) (Spec.row (b := 2048) (V c main_arg16)) (Spec.mat (a := 4096) (b := 2048) (V c main_v14_0)) (i 0) (i 1)

/-- Entry (a, b) of the tile point t computes is the blend at (p, q) = (512 i + a, 512 j + b). -/
theorem tile_entry (c : Dev nD) (t : Fin cfg1.N) (a b : Fin 512) (p : Fin 4096) (q : Fin 2048)
    (hp : p.val = win1_10.index t (0 : Fin 2) * 512 + a.val) (hq : q.val = win1_10.index t (1 : Fin 2) * 512 + b.val) :
    oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 a b)
      = Spec.blend (Spec.mat (a := 4096) (b := 2048) (V c main_v0)) (Spec.mat (a := 2048) (b := 2048) (V c main_v4)) (Spec.row (b := 2048) (V c main_v12))
          (Spec.mat (a := 4096) (b := 2048) (V c main_v14_1)) (Spec.row (b := 2048) (V c main_arg1)) (Spec.mat (a := 2048) (b := 2048) (V c main_v7))
          (Spec.row (b := 2048) (V c main_v13)) (Spec.row (b := 2048) (V c main_arg16)) (Spec.mat (a := 4096) (b := 2048) (V c main_v14_0)) p q := by
  rw [oblk_apply]
  simp only [x_read V c t a p hp, wh_read V c t b q hq, uh_read V c t b q hq, r_read V c t a p hp, hf_read V c t,
    ht_read V c t _ b q hq, z_read V c t a b p q hp hq, bwh_read V c t _ b q hq, buh_read V c t _ b q hq, bh_read V c t _ b q hq]
  rfl

/-- What point t writes back is its tile of the blend. -/
theorem flushed_eq (c : Dev nD) (t : Fin cfg1.N) :
    (dat1 V c).flushed 10 t = ((cfg1.win 10).blk t).view.read (Elt Ideal) (blendArr V c) := by
  show (cfg1.win 10).cut (grid1.coords t) ((dat1 V c).after 10 t) = _
  rw [after1_10]
  funext j
  obtain ⟨a, b, rfl⟩ : ∃ (a : Fin 512) (b : Fin 512), j = ix2 a b := ⟨j 0, j 1, eq_ix2 j⟩
  show oblk (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 a b)
      = blendArr V c (((cfg1.win 10).blk t).view.emb (ix2 a b))
  exact tile_entry V c t a b ((((cfg1.win 10).blk t).view.emb (ix2 a b)) 0) ((((cfg1.win 10).blk t).view.emb (ix2 a b)) 1)
    (show win1_10.index t (0 : Fin 2) * 512 + 1 * a.val = _ by omega)
    (show win1_10.index t (1 : Fin 2) * 512 + 1 * b.val = _ by omega)

/-! ## The tiles cover the array -/

/-- An entry of the array is in point t's tile iff each coordinate is in the tile's range on its axis. -/
theorem mem_tile (t : Fin cfg1.N) (i : S4096x2048.Idx) :
    i ∈ ((cfg1.win 10).blk t).view.set ↔ ∀ a : Fin 2, win1_10.index t a * S512x512.size a ≤ (i a).val ∧ (i a).val < win1_10.index t a * S512x512.size a + S512x512.size a := by
  show i ∈ ((View.whole main_v15).slice (win1_10.rect t)).set ↔ _
  rw [View.set_slice_whole, Rect.mem_set_unit]
  exact Iff.rfl

/-- Entry (p, q) is in the tile (p / 512, q / 512), which some point writes. -/
theorem covered (i : S4096x2048.Idx) : ∃ t : Fin cfg1.N, (cfg1.win 10).flush t = true ∧ i ∈ ((cfg1.win 10).blk t).view.set := by
  have hi0 : (i 0).val < 4096 := (i 0).isLt
  have hi1 : (i 1).val < 2048 := (i 1).isLt
  obtain ⟨t, ht⟩ := tile_onto ⟨(i 0).val / 512, by omega⟩ ⟨(i 1).val / 512, by omega⟩
  have q0 : win1_10.index t (0 : Fin 2) = (i 0).val / 512 := congrFun ht 0
  have q1 : win1_10.index t (1 : Fin 2) = (i 1).val / 512 := congrFun ht 1
  refine ⟨t, flush1_10 t, ?_⟩
  rw [mem_tile]
  intro a
  match a with
  | ⟨0, _⟩ => show win1_10.index t (0 : Fin 2) * 512 ≤ (i 0).val ∧ (i 0).val < win1_10.index t (0 : Fin 2) * 512 + 512; omega
  | ⟨1, _⟩ => show win1_10.index t (1 : Fin 2) * 512 ≤ (i 1).val ∧ (i 1).val < win1_10.index t (1 : Fin 2) * 512 + 512; omega

/-- So the output array ends holding the blend. -/
theorem arr_final (c : Dev nD) : (dat1 V c).arrAt 10 cfg1.N = blendArr V c :=
  (dat1 V c).arrAt_eq_of_cover 10 (blendArr V c) (fun t _ => flushed_eq V c t) covered

theorem out_final (c : Dev nD) (p : Fin 4096) (q : Fin 2048) :
    Spec.mat (a := 4096) (b := 2048) ((dat1 V c).arrAt 10 cfg1.N) p q
      = Spec.blend (Spec.mat (a := 4096) (b := 2048) (V c main_v0)) (Spec.mat (a := 2048) (b := 2048) (V c main_v4)) (Spec.row (b := 2048) (V c main_v12))
          (Spec.mat (a := 4096) (b := 2048) (V c main_v14_1)) (Spec.row (b := 2048) (V c main_arg1)) (Spec.mat (a := 2048) (b := 2048) (V c main_v7))
          (Spec.row (b := 2048) (V c main_v13)) (Spec.row (b := 2048) (V c main_arg16)) (Spec.mat (a := 4096) (b := 2048) (V c main_v14_0)) p q := by
  rw [arr_final V c]
  rfl

end Cert.KernelIdeal.Hand

end
-- ==== Proof.KI.HostRead.lean ====
/- What the host operations before the first region write, over the extended reals: the eight conversions to bf16 are
   the identity on their operands (a change of format changes no extended real), and the six reshapes of a [2048] bias
   to [1, 2048] read the bias at its one coordinate. The arguments themselves are written by none of them. -/
import proofs.«123994_j5050881540410_1_alg».proof.Proof.Gen.KernelIdeal.Launch
import proofs.«123994_j5050881540410_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-- Core c's buffers after the host operations before the first region, from the launch memory m. -/
abbrev hostVal (c : Dev nD) : Valuation τ sig (Elt Ideal) := StableHlo.after hostOps0 (fun b => m ((c : Dev nD), b))

theorem host_v0 (c : Dev nD) : Spec.mat (a := 4096) (b := 2048) (hostVal m c (Proc.devRef .tc main_v0)) = Spec.mat (a := 4096) (b := 2048) (m ((c : Thread nD τ).loc main_arg0)) := by
  -- the conversion's result is its operand, extended real by extended real
  have e : (hostVal m c (Proc.devRef .tc main_v0) : S4096x2048.Idx → EReal) = (m ((c : Thread nD τ).loc main_arg0) : S4096x2048.Idx → EReal) := by
    dsimp only [hostVal, hostOps0]; after_results; rfl
  exact congrArg (Spec.mat (a := 4096) (b := 2048)) e
theorem host_v1 (c : Dev nD) : Spec.row (b := 2048) (hostVal m c (Proc.devRef .tc main_v1)) = Spec.row (b := 2048) (m ((c : Thread nD τ).loc main_arg1)) := by
  -- the conversion's result is its operand, extended real by extended real
  have e : (hostVal m c (Proc.devRef .tc main_v1) : S1x2048.Idx → EReal) = (m ((c : Thread nD τ).loc main_arg1) : S1x2048.Idx → EReal) := by
    dsimp only [hostVal, hostOps0]; after_results; rfl
  exact congrArg (Spec.row (b := 2048)) e
theorem host_v2 (c : Dev nD) : Spec.mat (a := 2048) (b := 2048) (hostVal m c (Proc.devRef .tc main_v2)) = Spec.mat (a := 2048) (b := 2048) (m ((c : Thread nD τ).loc main_arg2)) := by
  -- the conversion's result is its operand, extended real by extended real
  have e : (hostVal m c (Proc.devRef .tc main_v2) : S2048x2048.Idx → EReal) = (m ((c : Thread nD τ).loc main_arg2) : S2048x2048.Idx → EReal) := by
    dsimp only [hostVal, hostOps0]; after_results; rfl
  exact congrArg (Spec.mat (a := 2048) (b := 2048)) e
theorem host_v3 (c : Dev nD) : Spec.mat (a := 2048) (b := 2048) (hostVal m c (Proc.devRef .tc main_v3)) = Spec.mat (a := 2048) (b := 2048) (m ((c : Thread nD τ).loc main_arg6)) := by
  -- the conversion's result is its operand, extended real by extended real
  have e : (hostVal m c (Proc.devRef .tc main_v3) : S2048x2048.Idx → EReal) = (m ((c : Thread nD τ).loc main_arg6) : S2048x2048.Idx → EReal) := by
    dsimp only [hostVal, hostOps0]; after_results; rfl
  exact congrArg (Spec.mat (a := 2048) (b := 2048)) e
theorem host_v4 (c : Dev nD) : Spec.mat (a := 2048) (b := 2048) (hostVal m c (Proc.devRef .tc main_v4)) = Spec.mat (a := 2048) (b := 2048) (m ((c : Thread nD τ).loc main_arg10)) := by
  -- the conversion's result is its operand, extended real by extended real
  have e : (hostVal m c (Proc.devRef .tc main_v4) : S2048x2048.Idx → EReal) = (m ((c : Thread nD τ).loc main_arg10) : S2048x2048.Idx → EReal) := by
    dsimp only [hostVal, hostOps0]; after_results; rfl
  exact congrArg (Spec.mat (a := 2048) (b := 2048)) e
theorem host_v5 (c : Dev nD) : Spec.mat (a := 2048) (b := 2048) (hostVal m c (Proc.devRef .tc main_v5)) = Spec.mat (a := 2048) (b := 2048) (m ((c : Thread nD τ).loc main_arg4)) := by
  -- the conversion's result is its operand, extended real by extended real
  have e : (hostVal m c (Proc.devRef .tc main_v5) : S2048x2048.Idx → EReal) = (m ((c : Thread nD τ).loc main_arg4) : S2048x2048.Idx → EReal) := by
    dsimp only [hostVal, hostOps0]; after_results; rfl
  exact congrArg (Spec.mat (a := 2048) (b := 2048)) e
theorem host_v6 (c : Dev nD) : Spec.mat (a := 2048) (b := 2048) (hostVal m c (Proc.devRef .tc main_v6)) = Spec.mat (a := 2048) (b := 2048) (m ((c : Thread nD τ).loc main_arg8)) := by
  -- the conversion's result is its operand, extended real by extended real
  have e : (hostVal m c (Proc.devRef .tc main_v6) : S2048x2048.Idx → EReal) = (m ((c : Thread nD τ).loc main_arg8) : S2048x2048.Idx → EReal) := by
    dsimp only [hostVal, hostOps0]; after_results; rfl
  exact congrArg (Spec.mat (a := 2048) (b := 2048)) e
theorem host_v7 (c : Dev nD) : Spec.mat (a := 2048) (b := 2048) (hostVal m c (Proc.devRef .tc main_v7)) = Spec.mat (a := 2048) (b := 2048) (m ((c : Thread nD τ).loc main_arg12)) := by
  -- the conversion's result is its operand, extended real by extended real
  have e : (hostVal m c (Proc.devRef .tc main_v7) : S2048x2048.Idx → EReal) = (m ((c : Thread nD τ).loc main_arg12) : S2048x2048.Idx → EReal) := by
    dsimp only [hostVal, hostOps0]; after_results; rfl
  exact congrArg (Spec.mat (a := 2048) (b := 2048)) e
theorem host_v8 (c : Dev nD) : Spec.row (b := 2048) (hostVal m c (Proc.devRef .tc main_v8)) = Spec.vec (b := 2048) (m ((c : Thread nD τ).loc main_arg3)) := by
  -- the reshape's result is the cast of the bias; entry (0, k) of the cast is entry k of the bias
  have e : (hostVal m c (Proc.devRef .tc main_v8) : S1x2048.Idx → EReal) = shapeCast S1x2048 (m ((c : Thread nD τ).loc main_arg3) : S2048.Idx → EReal) shapeCasts_S2048_S1x2048 := by
    dsimp only [hostVal, hostOps0]; after_results; rfl
  funext k
  show (hostVal m c (Proc.devRef .tc main_v8) : S1x2048.Idx → EReal) (ix2 0 k) = _
  rw [e]
  exact shapeCast_a_1a_apply _ _ 0 k
theorem host_v9 (c : Dev nD) : Spec.row (b := 2048) (hostVal m c (Proc.devRef .tc main_v9)) = Spec.vec (b := 2048) (m ((c : Thread nD τ).loc main_arg5)) := by
  -- the reshape's result is the cast of the bias; entry (0, k) of the cast is entry k of the bias
  have e : (hostVal m c (Proc.devRef .tc main_v9) : S1x2048.Idx → EReal) = shapeCast S1x2048 (m ((c : Thread nD τ).loc main_arg5) : S2048.Idx → EReal) shapeCasts_S2048_S1x2048 := by
    dsimp only [hostVal, hostOps0]; after_results; rfl
  funext k
  show (hostVal m c (Proc.devRef .tc main_v9) : S1x2048.Idx → EReal) (ix2 0 k) = _
  rw [e]
  exact shapeCast_a_1a_apply _ _ 0 k
theorem host_v10 (c : Dev nD) : Spec.row (b := 2048) (hostVal m c (Proc.devRef .tc main_v10)) = Spec.vec (b := 2048) (m ((c : Thread nD τ).loc main_arg7)) := by
  -- the reshape's result is the cast of the bias; entry (0, k) of the cast is entry k of the bias
  have e : (hostVal m c (Proc.devRef .tc main_v10) : S1x2048.Idx → EReal) = shapeCast S1x2048 (m ((c : Thread nD τ).loc main_arg7) : S2048.Idx → EReal) shapeCasts_S2048_S1x2048 := by
    dsimp only [hostVal, hostOps0]; after_results; rfl
  funext k
  show (hostVal m c (Proc.devRef .tc main_v10) : S1x2048.Idx → EReal) (ix2 0 k) = _
  rw [e]
  exact shapeCast_a_1a_apply _ _ 0 k
theorem host_v11 (c : Dev nD) : Spec.row (b := 2048) (hostVal m c (Proc.devRef .tc main_v11)) = Spec.vec (b := 2048) (m ((c : Thread nD τ).loc main_arg9)) := by
  -- the reshape's result is the cast of the bias; entry (0, k) of the cast is entry k of the bias
  have e : (hostVal m c (Proc.devRef .tc main_v11) : S1x2048.Idx → EReal) = shapeCast S1x2048 (m ((c : Thread nD τ).loc main_arg9) : S2048.Idx → EReal) shapeCasts_S2048_S1x2048 := by
    dsimp only [hostVal, hostOps0]; after_results; rfl
  funext k
  show (hostVal m c (Proc.devRef .tc main_v11) : S1x2048.Idx → EReal) (ix2 0 k) = _
  rw [e]
  exact shapeCast_a_1a_apply _ _ 0 k
theorem host_v12 (c : Dev nD) : Spec.row (b := 2048) (hostVal m c (Proc.devRef .tc main_v12)) = Spec.vec (b := 2048) (m ((c : Thread nD τ).loc main_arg11)) := by
  -- the reshape's result is the cast of the bias; entry (0, k) of the cast is entry k of the bias
  have e : (hostVal m c (Proc.devRef .tc main_v12) : S1x2048.Idx → EReal) = shapeCast S1x2048 (m ((c : Thread nD τ).loc main_arg11) : S2048.Idx → EReal) shapeCasts_S2048_S1x2048 := by
    dsimp only [hostVal, hostOps0]; after_results; rfl
  funext k
  show (hostVal m c (Proc.devRef .tc main_v12) : S1x2048.Idx → EReal) (ix2 0 k) = _
  rw [e]
  exact shapeCast_a_1a_apply _ _ 0 k
theorem host_v13 (c : Dev nD) : Spec.row (b := 2048) (hostVal m c (Proc.devRef .tc main_v13)) = Spec.vec (b := 2048) (m ((c : Thread nD τ).loc main_arg13)) := by
  -- the reshape's result is the cast of the bias; entry (0, k) of the cast is entry k of the bias
  have e : (hostVal m c (Proc.devRef .tc main_v13) : S1x2048.Idx → EReal) = shapeCast S1x2048 (m ((c : Thread nD τ).loc main_arg13) : S2048.Idx → EReal) shapeCasts_S2048_S1x2048 := by
    dsimp only [hostVal, hostOps0]; after_results; rfl
  funext k
  show (hostVal m c (Proc.devRef .tc main_v13) : S1x2048.Idx → EReal) (ix2 0 k) = _
  rw [e]
  exact shapeCast_a_1a_apply _ _ 0 k
theorem host_arg1 (c : Dev nD) : hostVal m c (Proc.devRef .tc main_arg1) = m ((c : Thread nD τ).loc main_arg1) := by
  -- no operation of the line writes an argument
  dsimp only [hostVal, hostOps0]; after_results
theorem host_arg14 (c : Dev nD) : hostVal m c (Proc.devRef .tc main_arg14) = m ((c : Thread nD τ).loc main_arg14) := by
  -- no operation of the line writes an argument
  dsimp only [hostVal, hostOps0]; after_results
theorem host_arg15 (c : Dev nD) : hostVal m c (Proc.devRef .tc main_arg15) = m ((c : Thread nD τ).loc main_arg15) := by
  -- no operation of the line writes an argument
  dsimp only [hostVal, hostOps0]; after_results
theorem host_arg16 (c : Dev nD) : hostVal m c (Proc.devRef .tc main_arg16) = m ((c : Thread nD τ).loc main_arg16) := by
  -- no operation of the line writes an argument
  dsimp only [hostVal, hostOps0]; after_results

end Cert.KernelIdeal.Hand

end
-- ==== Proof.KI.Final.lean ====
/- The idealized kernel's result, over the extended reals, is the step function of its arguments. Region 1's result
   array is the blend of h and the candidate state read off region 1's entry contents; those are the launch memory
   where no earlier item wrote, the host conversions and reshapes of the arguments (which change no extended real),
   and region 0's two gate arrays, themselves the gate function of the host results. -/
import proofs.«123994_j5050881540410_1_alg».proof.Proof.KI.Run
import proofs.«123994_j5050881540410_1_alg».proof.Proof.KI.Body0
import proofs.«123994_j5050881540410_1_alg».proof.Proof.KI.Body1
import proofs.«123994_j5050881540410_1_alg».proof.Proof.KI.Value0
import proofs.«123994_j5050881540410_1_alg».proof.Proof.KI.Value1
import proofs.«123994_j5050881540410_1_alg».proof.Proof.KI.HostRead
import proofs.«123994_j5050881540410_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 0 writes none of its input arrays: region 1 finds them as region 0 did. -/
theorem V2_in0 (c : Dev nD) (w : Fin cfg0.W) (hin : (cfg0.win w).isOut = false) :
    V2 m c (Pipeline.arrRef spec0 w) = V1 m c (Pipeline.arrRef spec0 w) :=
  (W2_arr m c w).trans (((dat0 (V1 m) c).arrAt_in w hin _).trans (A_eq0 (V1 m) c w))

/-- The update gate as region 1 finds it. -/
theorem z_entry (c : Dev nD) : Spec.mat (a := 4096) (b := 2048) (V2 m c main_v14_0)
    = Spec.gate (Spec.mat (a := 4096) (b := 2048) (m ((c : Thread nD τ).loc main_arg0))) (Spec.mat (a := 2048) (b := 2048) (m ((c : Thread nD τ).loc main_arg2))) (Spec.vec (b := 2048) (m ((c : Thread nD τ).loc main_arg3)))
        (Spec.row (b := 2048) (m ((c : Thread nD τ).loc main_arg1))) (Spec.mat (a := 2048) (b := 2048) (m ((c : Thread nD τ).loc main_arg4))) (Spec.vec (b := 2048) (m ((c : Thread nD τ).loc main_arg5))) (Spec.row (b := 2048) (m ((c : Thread nD τ).loc main_arg14))) := by
  funext p q
  have e : V2 m c main_v14_0 = (dat0 (V1 m) c).arrAt 12 cfg0.N := W2_arr m c 12
  rw [e, z_final (V1 m) c p q]
  rw [show Spec.mat (a := 4096) (b := 2048) (V1 m c main_v0) = _ from host_v0 m c,
    show Spec.mat (a := 2048) (b := 2048) (V1 m c main_v2) = _ from host_v2 m c,
    show Spec.row (b := 2048) (V1 m c main_v8) = _ from host_v8 m c,
    show Spec.row (b := 2048) (V1 m c main_v1) = _ from host_v1 m c,
    show Spec.mat (a := 2048) (b := 2048) (V1 m c main_v5) = _ from host_v5 m c,
    show Spec.row (b := 2048) (V1 m c main_v9) = _ from host_v9 m c,
    show V1 m c main_arg14 = _ from host_arg14 m c]

/-- The reset gate as region 1 finds it. -/
theorem r_entry (c : Dev nD) : Spec.mat (a := 4096) (b := 2048) (V2 m c main_v14_1)
    = Spec.gate (Spec.mat (a := 4096) (b := 2048) (m ((c : Thread nD τ).loc main_arg0))) (Spec.mat (a := 2048) (b := 2048) (m ((c : Thread nD τ).loc main_arg6))) (Spec.vec (b := 2048) (m ((c : Thread nD τ).loc main_arg7)))
        (Spec.row (b := 2048) (m ((c : Thread nD τ).loc main_arg1))) (Spec.mat (a := 2048) (b := 2048) (m ((c : Thread nD τ).loc main_arg8))) (Spec.vec (b := 2048) (m ((c : Thread nD τ).loc main_arg9))) (Spec.row (b := 2048) (m ((c : Thread nD τ).loc main_arg15))) := by
  funext p q
  have e : V2 m c main_v14_1 = (dat0 (V1 m) c).arrAt 13 cfg0.N := W2_arr m c 13
  rw [e, r_final (V1 m) c p q]
  rw [show Spec.mat (a := 4096) (b := 2048) (V1 m c main_v0) = _ from host_v0 m c,
    show Spec.mat (a := 2048) (b := 2048) (V1 m c main_v3) = _ from host_v3 m c,
    show Spec.row (b := 2048) (V1 m c main_v10) = _ from host_v10 m c,
    show Spec.row (b := 2048) (V1 m c main_v1) = _ from host_v1 m c,
    show Spec.mat (a := 2048) (b := 2048) (V1 m c main_v6) = _ from host_v6 m c,
    show Spec.row (b := 2048) (V1 m c main_v11) = _ from host_v11 m c,
    show V1 m c main_arg15 = _ from host_arg15 m c]

/-- THE VALUE: entry (p, q) of the result array after the run is the step function of the arguments. -/
theorem result_is_step (c : Dev nD) (p : Fin 4096) (q : Fin 2048) :
    Spec.mat (a := 4096) (b := 2048) ((dat1 (V2 m) c).arrAt 10 cfg1.N) p q
      = Spec.step (Spec.mat (a := 4096) (b := 2048) (m ((c : Thread nD τ).loc main_arg0))) (Spec.row (b := 2048) (m ((c : Thread nD τ).loc main_arg1)))
          (Spec.mat (a := 2048) (b := 2048) (m ((c : Thread nD τ).loc main_arg2))) (Spec.vec (b := 2048) (m ((c : Thread nD τ).loc main_arg3))) (Spec.mat (a := 2048) (b := 2048) (m ((c : Thread nD τ).loc main_arg4))) (Spec.vec (b := 2048) (m ((c : Thread nD τ).loc main_arg5)))
          (Spec.mat (a := 2048) (b := 2048) (m ((c : Thread nD τ).loc main_arg6))) (Spec.vec (b := 2048) (m ((c : Thread nD τ).loc main_arg7))) (Spec.mat (a := 2048) (b := 2048) (m ((c : Thread nD τ).loc main_arg8))) (Spec.vec (b := 2048) (m ((c : Thread nD τ).loc main_arg9)))
          (Spec.mat (a := 2048) (b := 2048) (m ((c : Thread nD τ).loc main_arg10))) (Spec.vec (b := 2048) (m ((c : Thread nD τ).loc main_arg11))) (Spec.mat (a := 2048) (b := 2048) (m ((c : Thread nD τ).loc main_arg12))) (Spec.vec (b := 2048) (m ((c : Thread nD τ).loc main_arg13)))
          (Spec.row (b := 2048) (m ((c : Thread nD τ).loc main_arg14))) (Spec.row (b := 2048) (m ((c : Thread nD τ).loc main_arg15))) (Spec.row (b := 2048) (m ((c : Thread nD τ).loc main_arg16))) p q := by
  rw [out_final (V2 m) c p q, z_entry m c, r_entry m c]
  have e0 : V2 m c main_v0 = V1 m c main_v0 := V2_in0 m c 0 rfl
  have e4 : V2 m c main_v4 = V1 m c main_v4 := W2_of_ne m c main_v4 (by decide)
  have e7 : V2 m c main_v7 = V1 m c main_v7 := W2_of_ne m c main_v7 (by decide)
  have e12 : V2 m c main_v12 = V1 m c main_v12 := W2_of_ne m c main_v12 (by decide)
  have e13 : V2 m c main_v13 = V1 m c main_v13 := W2_of_ne m c main_v13 (by decide)
  have eh : V2 m c main_arg1 = V1 m c main_arg1 := W2_of_ne m c main_arg1 (by decide)
  have e16 : V2 m c main_arg16 = V1 m c main_arg16 := W2_of_ne m c main_arg16 (by decide)
  rw [e0, e4, e7, e12, e13, eh, e16]
  rw [show Spec.mat (a := 4096) (b := 2048) (V1 m c main_v0) = _ from host_v0 m c,
    show Spec.mat (a := 2048) (b := 2048) (V1 m c main_v4) = _ from host_v4 m c,
    show Spec.row (b := 2048) (V1 m c main_v12) = _ from host_v12 m c,
    show Spec.mat (a := 2048) (b := 2048) (V1 m c main_v7) = _ from host_v7 m c,
    show Spec.row (b := 2048) (V1 m c main_v13) = _ from host_v13 m c,
    show V1 m c main_arg1 = _ from host_arg1 m c,
    show V1 m c main_arg16 = _ from host_arg16 m c]
  rfl

/-- The result array as one function of the arguments. -/
def out (c : Dev nD) : Buf (Elt Ideal) ((c.tc : Thread nD τ).loc main_v15) := fun i =>
  Spec.step (Spec.mat (a := 4096) (b := 2048) (m ((c : Thread nD τ).loc main_arg0))) (Spec.row (b := 2048) (m ((c : Thread nD τ).loc main_arg1)))
    (Spec.mat (a := 2048) (b := 2048) (m ((c : Thread nD τ).loc main_arg2))) (Spec.vec (b := 2048) (m ((c : Thread nD τ).loc main_arg3))) (Spec.mat (a := 2048) (b := 2048) (m ((c : Thread nD τ).loc main_arg4))) (Spec.vec (b := 2048) (m ((c : Thread nD τ).loc main_arg5)))
    (Spec.mat (a := 2048) (b := 2048) (m ((c : Thread nD τ).loc main_arg6))) (Spec.vec (b := 2048) (m ((c : Thread nD τ).loc main_arg7))) (Spec.mat (a := 2048) (b := 2048) (m ((c : Thread nD τ).loc main_arg8))) (Spec.vec (b := 2048) (m ((c : Thread nD τ).loc main_arg9)))
    (Spec.mat (a := 2048) (b := 2048) (m ((c : Thread nD τ).loc main_arg10))) (Spec.vec (b := 2048) (m ((c : Thread nD τ).loc main_arg11))) (Spec.mat (a := 2048) (b := 2048) (m ((c : Thread nD τ).loc main_arg12))) (Spec.vec (b := 2048) (m ((c : Thread nD τ).loc main_arg13)))
    (Spec.row (b := 2048) (m ((c : Thread nD τ).loc main_arg14))) (Spec.row (b := 2048) (m ((c : Thread nD τ).loc main_arg15))) (Spec.row (b := 2048) (m ((c : Thread nD τ).loc main_arg16))) (i 0) (i 1)

theorem result_eq_out (c : Dev nD) : (dat1 (V2 m) c).arrAt 10 cfg1.N = out m c := by
  funext i
  obtain ⟨p, q, rfl⟩ : ∃ (p : Fin 4096) (q : Fin 2048), i = ix2 p q := ⟨i 0, i 1, eq_ix2 i⟩
  exact result_is_step m c p q

end Cert.KernelIdeal.Hand

end
-- ==== Proof.RefGates.lean ====
/- The reference's two gates read at an entry: its update gate (the stage it names %19) and its reset gate (%39), each
   spelt as one over one plus the exponential of the negated pre-activation, are the logistic function of the
   pre-activation, whose two products x·Wᵀ and h·Uᵀ are sums over the shared axis after the transposes are read through. -/
import proofs.«123994_j5050881540410_1_alg».proof.Proof.Gen.ReferenceIdeal.Run
import proofs.«123994_j5050881540410_1_alg».proof.Proof.Gen.ReferenceIdeal.Read

import proofs.«123994_j5050881540410_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.Read
open Idealize.ShloMosaic Idealize.ShloMosaic.ValueIdx

/-- The word both programs print for one is the number one. -/
theorem ofBits_one : Ideal.ofBits .f32 0x3F800000#32 = 1 := by
  simp [Ideal.ofBits, Ideal.ieee, -EReal.coe_mul]; norm_num

/-! Where each stage reads its operand, at row p and column q (and term k of a product). -/

-- a [1,2048] bias spread over the rows is read at (0, q)
theorem row_v12 (p : Fin 4096) (q : Fin 2048) : idx_main_v12 (ix2 p q) = ix2 (0 : Fin 1) q :=
  funext fun a => Fin.ext (by match a with | ⟨0, _⟩ => rfl | ⟨1, _⟩ => rfl)
theorem row_v32 (p : Fin 4096) (q : Fin 2048) : idx_main_v32 (ix2 p q) = ix2 (0 : Fin 1) q :=
  funext fun a => Fin.ext (by match a with | ⟨0, _⟩ => rfl | ⟨1, _⟩ => rfl)

-- a [2048] bias made a row and spread over the rows is read at q
theorem vec_v3 (p : Fin 4096) (q : Fin 2048) : idx_main_v2 (idx_main_v3 (ix2 p q)) = ix1 q :=
  funext fun a => Fin.ext (by match a with | ⟨0, _⟩ => rfl)
theorem vec_v10 (p : Fin 4096) (q : Fin 2048) : idx_main_v9 (idx_main_v10 (ix2 p q)) = ix1 q :=
  funext fun a => Fin.ext (by match a with | ⟨0, _⟩ => rfl)
theorem vec_v23 (p : Fin 4096) (q : Fin 2048) : idx_main_v22 (idx_main_v23 (ix2 p q)) = ix1 q :=
  funext fun a => Fin.ext (by match a with | ⟨0, _⟩ => rfl)
theorem vec_v30 (p : Fin 4096) (q : Fin 2048) : idx_main_v29 (idx_main_v30 (ix2 p q)) = ix1 q :=
  funext fun a => Fin.ext (by match a with | ⟨0, _⟩ => rfl)

-- x·Wᵀ: term k reads x at (p, k) and, through the transpose, W at (q, k)
theorem xl_v1 (p : Fin 4096) (q k : Fin 2048) : lidx_main_v1 (ix2 p q) k = ix2 p k :=
  funext fun a => Fin.ext (by match a with | ⟨0, _⟩ => rfl | ⟨1, _⟩ => rfl)
theorem xr_v1 (p : Fin 4096) (q k : Fin 2048) : idx_main_v0 (ridx_main_v1 (ix2 p q) k) = ix2 q k :=
  funext fun a => Fin.ext (by match a with | ⟨0, _⟩ => rfl | ⟨1, _⟩ => rfl)
theorem xl_v21 (p : Fin 4096) (q k : Fin 2048) : lidx_main_v21 (ix2 p q) k = ix2 p k :=
  funext fun a => Fin.ext (by match a with | ⟨0, _⟩ => rfl | ⟨1, _⟩ => rfl)
theorem xr_v21 (p : Fin 4096) (q k : Fin 2048) : idx_main_v20 (ridx_main_v21 (ix2 p q) k) = ix2 q k :=
  funext fun a => Fin.ext (by match a with | ⟨0, _⟩ => rfl | ⟨1, _⟩ => rfl)
-- h·Uᵀ, a one-row product spread over the rows: term k reads h at (0, k) and U at (q, k)
theorem hl_v6 (p : Fin 4096) (q k : Fin 2048) : lidx_main_v6 (idx_main_v7 (ix2 p q)) k = ix2 (0 : Fin 1) k :=
  funext fun a => Fin.ext (by match a with | ⟨0, _⟩ => rfl | ⟨1, _⟩ => rfl)
theorem hr_v6 (p : Fin 4096) (q k : Fin 2048) : idx_main_v5 (ridx_main_v6 (idx_main_v7 (ix2 p q)) k) = ix2 q k :=
  funext fun a => Fin.ext (by match a with | ⟨0, _⟩ => rfl | ⟨1, _⟩ => rfl)
theorem hl_v26 (p : Fin 4096) (q k : Fin 2048) : lidx_main_v26 (idx_main_v27 (ix2 p q)) k = ix2 (0 : Fin 1) k :=
  funext fun a => Fin.ext (by match a with | ⟨0, _⟩ => rfl | ⟨1, _⟩ => rfl)
theorem hr_v26 (p : Fin 4096) (q k : Fin 2048) : idx_main_v25 (ridx_main_v26 (idx_main_v27 (ix2 p q)) k) = ix2 q k :=
  funext fun a => Fin.ext (by match a with | ⟨0, _⟩ => rfl | ⟨1, _⟩ => rfl)

theorem ref_z (x0 : (⟨S4096x2048, .f32⟩ : BufTy).Contents (Elt Ideal)) (x1 : (⟨S1x2048, .f32⟩ : BufTy).Contents (Elt Ideal)) (x2 : (⟨S2048x2048, .f32⟩ : BufTy).Contents (Elt Ideal)) (x3 : (⟨S2048, .f32⟩ : BufTy).Contents (Elt Ideal)) (x4 : (⟨S2048x2048, .f32⟩ : BufTy).Contents (Elt Ideal)) (x5 : (⟨S2048, .f32⟩ : BufTy).Contents (Elt Ideal))
    (x14 : (⟨S1x2048, .f32⟩ : BufTy).Contents (Elt Ideal)) (p : Fin 4096) (q : Fin 2048) :
    val_main_v19 (F := Ideal) x0 x1 x2 x3 x4 x5 x14 (ix2 p q)
      = Spec.gate (Spec.mat x0) (Spec.mat x2) (Spec.vec x3) (Spec.row x1) (Spec.mat x4) (Spec.vec x5) (Spec.row x14) p q := by
  simp only [val_main_v19_apply, val_main_v18_apply, val_main_cst_0_apply, val_main_v17_apply, val_main_v16_apply,
    val_main_cst_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply, val_main_v3_apply, val_main_v2_apply,
    val_main_v1_apply, val_main_v0_apply]
  simp only [row_v12, vec_v3, vec_v10, xl_v1, xr_v1, hl_v6, hr_v6,
    Ideal.hostDivf_def, Ideal.addf_def, Ideal.hostUnary_exp_def, Ideal.hostNegf_def, Ideal.negf_def, Ideal.ofBits_def,
    ofBits_one]
  rfl

theorem ref_r (x0 : (⟨S4096x2048, .f32⟩ : BufTy).Contents (Elt Ideal)) (x1 : (⟨S1x2048, .f32⟩ : BufTy).Contents (Elt Ideal)) (x6 : (⟨S2048x2048, .f32⟩ : BufTy).Contents (Elt Ideal)) (x7 : (⟨S2048, .f32⟩ : BufTy).Contents (Elt Ideal)) (x8 : (⟨S2048x2048, .f32⟩ : BufTy).Contents (Elt Ideal)) (x9 : (⟨S2048, .f32⟩ : BufTy).Contents (Elt Ideal))
    (x15 : (⟨S1x2048, .f32⟩ : BufTy).Contents (Elt Ideal)) (p : Fin 4096) (q : Fin 2048) :
    val_main_v39 (F := Ideal) x0 x1 x6 x7 x8 x9 x15 (ix2 p q)
      = Spec.gate (Spec.mat x0) (Spec.mat x6) (Spec.vec x7) (Spec.row x1) (Spec.mat x8) (Spec.vec x9) (Spec.row x15) p q := by
  simp only [val_main_v39_apply, val_main_v38_apply, val_main_cst_2_apply, val_main_v37_apply, val_main_v36_apply,
    val_main_cst_1_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply]
  simp only [row_v32, vec_v23, vec_v30, xl_v21, xr_v21, hl_v26, hr_v26,
    Ideal.hostDivf_def, Ideal.addf_def, Ideal.hostUnary_exp_def, Ideal.hostNegf_def, Ideal.negf_def, Ideal.ofBits_def,
    ofBits_one]
  rfl

end Cert.RefValue

end
-- ==== Proof.Ref.lean ====
/- The reference's result read at an entry is the step function of its seventeen arguments: the candidate state's
   pre-activation multiplies the reset gate by h before the product with Uhᵀ, and the result blends h and the
   candidate by the update gate. -/
import proofs.«123994_j5050881540410_1_alg».proof.Proof.Gen.ReferenceIdeal.Run
import proofs.«123994_j5050881540410_1_alg».proof.Proof.Gen.ReferenceIdeal.Read
import proofs.«123994_j5050881540410_1_alg».proof.Proof.RefGates
import proofs.«123994_j5050881540410_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.Read
open Idealize.ShloMosaic Idealize.ShloMosaic.ValueIdx

/-! The index functions the stages read through, at an entry given by its coordinates. -/

/-- The left operand of a product x·Wᵀ at row p is read at (p, k). -/
theorem lidx41_eq (p : Fin 4096) (q k : Fin 2048) : lidx_main_v41 (ix2 p q) k = ix2 p k :=
  funext fun a => Fin.ext (by match a with | ⟨0, _⟩ => rfl | ⟨1, _⟩ => rfl)
/-- The transposed weight at (k, q) is the weight at (q, k). -/
theorem ridx41_eq (p : Fin 4096) (q k : Fin 2048) : idx_main_v40 (ridx_main_v41 (ix2 p q) k) = ix2 q k :=
  funext fun a => Fin.ext (by match a with | ⟨0, _⟩ => rfl | ⟨1, _⟩ => rfl)
theorem lidx48_eq (p : Fin 4096) (q k : Fin 2048) : lidx_main_v48 (ix2 p q) k = ix2 p k :=
  funext fun a => Fin.ext (by match a with | ⟨0, _⟩ => rfl | ⟨1, _⟩ => rfl)
theorem ridx48_eq (p : Fin 4096) (q k : Fin 2048) : idx_main_v47 (ridx_main_v48 (ix2 p q) k) = ix2 q k :=
  funext fun a => Fin.ext (by match a with | ⟨0, _⟩ => rfl | ⟨1, _⟩ => rfl)
/-- A bias of one axis, made a row and repeated over the rows, is read at its column. -/
theorem idx43_eq (p : Fin 4096) (q : Fin 2048) : idx_main_v42 (idx_main_v43 (ix2 p q)) = ix1 q :=
  funext fun a => Fin.ext (by match a with | ⟨0, _⟩ => rfl)
theorem idx51_eq (p : Fin 4096) (q : Fin 2048) : idx_main_v50 (idx_main_v51 (ix2 p q)) = ix1 q :=
  funext fun a => Fin.ext (by match a with | ⟨0, _⟩ => rfl)
/-- A one-row array repeated over the rows is read at row 0 and the same column. -/
theorem idx45_eq (p : Fin 4096) (q : Fin 2048) : idx_main_v45 (ix2 p q) = ix2 0 q :=
  funext fun a => Fin.ext (by match a with | ⟨0, _⟩ => rfl | ⟨1, _⟩ => rfl)
theorem idx53_eq (p : Fin 4096) (q : Fin 2048) : idx_main_v53 (ix2 p q) = ix2 0 q :=
  funext fun a => Fin.ext (by match a with | ⟨0, _⟩ => rfl | ⟨1, _⟩ => rfl)
theorem idx58_eq (p : Fin 4096) (q : Fin 2048) : idx_main_v58 (ix2 p q) = ix2 0 q :=
  funext fun a => Fin.ext (by match a with | ⟨0, _⟩ => rfl | ⟨1, _⟩ => rfl)

/-! The candidate's pieces at an entry. -/

/-- The product x·Whᵀ at (p, q) is the sum over k of x (p, k) · Wh (q, k). -/
theorem ref_xWh (x0 : (⟨S4096x2048, .f32⟩ : BufTy).Contents (Elt Ideal)) (x10 : (⟨S2048x2048, .f32⟩ : BufTy).Contents (Elt Ideal)) (p : Fin 4096) (q : Fin 2048) :
    val_main_v41 (F := Ideal) x0 x10 (ix2 p q) = ∑ k : Fin 2048, Spec.mat x0 p k * Spec.mat x10 q k := by
  rw [val_main_v41_apply]
  refine Finset.sum_congr rfl fun k _ => ?_
  rw [val_main_v40_apply, lidx41_eq, ridx41_eq]

/-- The bias bwh, broadcast twice, at (p, q) is bwh q. -/
theorem ref_bwh (x11 : (⟨S2048, .f32⟩ : BufTy).Contents (Elt Ideal)) (p : Fin 4096) (q : Fin 2048) :
    val_main_v43 (F := Ideal) x11 (ix2 p q) = Spec.vec x11 q := by
  rw [val_main_v43_apply, val_main_v42_apply, idx43_eq]

/-- The bias buh, broadcast twice, at (p, q) is buh q. -/
theorem ref_buh (x13 : (⟨S2048, .f32⟩ : BufTy).Contents (Elt Ideal)) (p : Fin 4096) (q : Fin 2048) :
    val_main_v51 (F := Ideal) x13 (ix2 p q) = Spec.vec x13 q := by
  rw [val_main_v51_apply, val_main_v50_apply, idx51_eq]

/-- The old state repeated over the rows, at (p, q), is h q: where it multiplies the reset gate, and where it is blended. -/
theorem ref_h45 (x1 : (⟨S1x2048, .f32⟩ : BufTy).Contents (Elt Ideal)) (p : Fin 4096) (q : Fin 2048) :
    val_main_v45 (F := Ideal) x1 (ix2 p q) = Spec.row x1 q := by
  rw [val_main_v45_apply, idx45_eq]
theorem ref_h58 (x1 : (⟨S1x2048, .f32⟩ : BufTy).Contents (Elt Ideal)) (p : Fin 4096) (q : Fin 2048) :
    val_main_v58 (F := Ideal) x1 (ix2 p q) = Spec.row x1 q := by
  rw [val_main_v58_apply, idx58_eq]
/-- The bias b_h repeated over the rows, at (p, q), is b_h q. -/
theorem ref_bh (x16 : (⟨S1x2048, .f32⟩ : BufTy).Contents (Elt Ideal)) (p : Fin 4096) (q : Fin 2048) :
    val_main_v53 (F := Ideal) x16 (ix2 p q) = Spec.row x16 q := by
  rw [val_main_v53_apply, idx53_eq]

/-- The product (r ∗ h)·Uhᵀ at (p, q) is the sum over k of (r (p, k) · h k) · Uh (q, k), r the reset gate. -/
theorem ref_rhUh (x0 : (⟨S4096x2048, .f32⟩ : BufTy).Contents (Elt Ideal)) (x1 : (⟨S1x2048, .f32⟩ : BufTy).Contents (Elt Ideal)) (x6 : (⟨S2048x2048, .f32⟩ : BufTy).Contents (Elt Ideal)) (x7 : (⟨S2048, .f32⟩ : BufTy).Contents (Elt Ideal)) (x8 : (⟨S2048x2048, .f32⟩ : BufTy).Contents (Elt Ideal)) (x9 : (⟨S2048, .f32⟩ : BufTy).Contents (Elt Ideal))
    (x12 : (⟨S2048x2048, .f32⟩ : BufTy).Contents (Elt Ideal)) (x15 : (⟨S1x2048, .f32⟩ : BufTy).Contents (Elt Ideal)) (p : Fin 4096) (q : Fin 2048) :
    val_main_v48 (F := Ideal) x0 x1 x6 x7 x8 x9 x12 x15 (ix2 p q)
      = ∑ k : Fin 2048, (Spec.gate (Spec.mat x0) (Spec.mat x6) (Spec.vec x7) (Spec.row x1) (Spec.mat x8) (Spec.vec x9) (Spec.row x15) p k * Spec.row x1 k) * Spec.mat x12 q k := by
  rw [val_main_v48_apply]
  refine Finset.sum_congr rfl fun k _ => ?_
  rw [val_main_v47_apply, lidx48_eq, ridx48_eq, val_main_v46_apply, ref_r, ref_h45]
  rfl

/-- The constant one repeated over the array is the word for one. -/
theorem ref_one (i : S4096x2048.Idx) : val_main_v56 (F := Ideal) i = Spec.one := by
  rw [val_main_v56_apply, val_main_cst_3_apply]
  rfl

theorem ref_is_step (x0 : (⟨S4096x2048, .f32⟩ : BufTy).Contents (Elt Ideal)) (x1 : (⟨S1x2048, .f32⟩ : BufTy).Contents (Elt Ideal)) (x2 : (⟨S2048x2048, .f32⟩ : BufTy).Contents (Elt Ideal)) (x3 : (⟨S2048, .f32⟩ : BufTy).Contents (Elt Ideal)) (x4 : (⟨S2048x2048, .f32⟩ : BufTy).Contents (Elt Ideal)) (x5 : (⟨S2048, .f32⟩ : BufTy).Contents (Elt Ideal))
    (x6 : (⟨S2048x2048, .f32⟩ : BufTy).Contents (Elt Ideal)) (x7 : (⟨S2048, .f32⟩ : BufTy).Contents (Elt Ideal)) (x8 : (⟨S2048x2048, .f32⟩ : BufTy).Contents (Elt Ideal)) (x9 : (⟨S2048, .f32⟩ : BufTy).Contents (Elt Ideal)) (x10 : (⟨S2048x2048, .f32⟩ : BufTy).Contents (Elt Ideal)) (x11 : (⟨S2048, .f32⟩ : BufTy).Contents (Elt Ideal))
    (x12 : (⟨S2048x2048, .f32⟩ : BufTy).Contents (Elt Ideal)) (x13 : (⟨S2048, .f32⟩ : BufTy).Contents (Elt Ideal)) (x14 : (⟨S1x2048, .f32⟩ : BufTy).Contents (Elt Ideal)) (x15 : (⟨S1x2048, .f32⟩ : BufTy).Contents (Elt Ideal)) (x16 : (⟨S1x2048, .f32⟩ : BufTy).Contents (Elt Ideal)) (p : Fin 4096) (q : Fin 2048) :
    val_main_v61 (F := Ideal) x0 x1 x2 x3 x4 x5 x6 x7 x8 x9 x10 x11 x12 x13 x14 x15 x16 (ix2 p q)
      = Spec.step (Spec.mat x0) (Spec.row x1) (Spec.mat x2) (Spec.vec x3) (Spec.mat x4) (Spec.vec x5) (Spec.mat x6) (Spec.vec x7) (Spec.mat x8) (Spec.vec x9)
          (Spec.mat x10) (Spec.vec x11) (Spec.mat x12) (Spec.vec x13) (Spec.row x14) (Spec.row x15) (Spec.row x16) p q := by
  rw [val_main_v61_apply, val_main_v59_apply, val_main_v60_apply, val_main_v57_apply, val_main_v55_apply,
    val_main_v54_apply, val_main_v52_apply, val_main_v49_apply, val_main_v44_apply,
    ref_z, ref_one, ref_h58, ref_xWh, ref_bwh, ref_rhUh, ref_buh, ref_bh]
  rfl

end Cert.RefValue

end
-- ==== Proof.Bridge.lean ====
/- The two idealized programs compute one function: from memories that agree on the seventeen arguments, the
   reference's result — read at an entry, the step function of its arguments — is the array the kernel's run leaves. -/
import proofs.«123994_j5050881540410_1_alg».proof.Proof.KI.Final
import proofs.«123994_j5050881540410_1_alg».proof.Proof.Ref

set_option maxRecDepth 16384

noncomputable section

namespace Cert.Bridge

open Idealize.ShloMosaic Idealize.ShloMosaic.TcCoe Idealize.ShloMosaic.ValueIdx Idealize.SL.Sem

theorem ref_eq_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v61 m' c = Cert.KernelIdeal.Hand.out m c := by
  rw [Cert.ReferenceIdeal.Read.val_main_v61_eq, h0, h1, h2, h3, h4, h5, h6, h7, h8, h9, h10, h11, h12, h13, h14, h15, h16]
  funext i
  obtain ⟨p, q, rfl⟩ : ∃ (p : Fin 4096) (q : Fin 2048), i = ix2 p q := ⟨i 0, i 1, eq_ix2 i⟩
  exact Cert.RefValue.ref_is_step _ _ _ _ _ _ _ _ _ _ _ _ _ _ _ _ _ p q

end Cert.Bridge

end
-- ==== Proof.lean ====
/- The certificate of a GRU cell's step computed by two kernel regions — the update and reset gates, then the candidate
   state and the blend — against its reference, over the extended reals.
   Both programs compute, at row p and column q, (1 − z)·h + z·tanh(x·Whᵀ + bwh + (r∗h)·Uhᵀ + buh + b_h) with
   z, r = logistic(x·Wᵀ + bw + h·Uᵀ + bu + b): the kernel's conversions to bf16 change no extended real, its tiled
   products are the same sums over the shared axis, and its additions come in the reference's order, so the two sides
   are equal term by term and no finiteness is used. The frames: each region's body runs at every grid point on the
   blocks the pipeline stages, the state vector h reaching region 1 through two windows that share its array's share;
   the reference's frame is its run with the result dropped. The idealization rewrote nothing. -/
import proofs.«123994_j5050881540410_1_alg».proof.Defs
import proofs.«123994_j5050881540410_1_alg».proof.Proof.Gen.Kernel
import proofs.«123994_j5050881540410_1_alg».proof.Proof.Gen.KernelIdeal
import proofs.«123994_j5050881540410_1_alg».proof.Proof.Gen.ReferenceIdeal
import proofs.«123994_j5050881540410_1_alg».proof.Proof.Gen.Pre_finite_inputs
import proofs.«123994_j5050881540410_1_alg».proof.Proof.Gen.ReferenceIdeal.Run
import proofs.«123994_j5050881540410_1_alg».proof.Proof.Gen.ReferenceIdeal.Read
import proofs.«123994_j5050881540410_1_alg».proof.Proof.K.Run
import proofs.«123994_j5050881540410_1_alg».proof.Proof.K.Body0
import proofs.«123994_j5050881540410_1_alg».proof.Proof.K.Body1
import proofs.«123994_j5050881540410_1_alg».proof.Proof.KI.Run
import proofs.«123994_j5050881540410_1_alg».proof.Proof.KI.Body0
import proofs.«123994_j5050881540410_1_alg».proof.Proof.KI.Body1
import proofs.«123994_j5050881540410_1_alg».proof.Proof.KI.Final
import proofs.«123994_j5050881540410_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ (fun V c => Cert.Kernel.Hand.body_obligation0 V c) (fun V c => Cert.Kernel.Hand.body_obligation1 V c),
  fun m ρ _ => Cert.KernelIdeal.Hand.frame m ρ (fun V c => Cert.KernelIdeal.Hand.body_obligation0 V c) (fun V c => Cert.KernelIdeal.Hand.body_obligation1 V c),
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Hand.out m c,
    (θ_run Cert.KernelIdeal.defs _ _).mono (fun _ h c => ⟨(h c).1.trans (Cert.KernelIdeal.Hand.result_eq_out m c), (h c).2⟩)
      (Cert.KernelIdeal.Hand.run_result m ρ (fun V c => Cert.KernelIdeal.Hand.body_obligation0 V c) (fun V c => Cert.KernelIdeal.Hand.body_obligation1 V c)),
    (θ_run Cert.ReferenceIdeal.defs _ _).mono (fun _ h c => ⟨(h c).1.trans (Cert.Bridge.ref_eq_out m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2), (h c).2⟩)
      (Cert.ReferenceIdeal.Value.run (F := Ideal) m' ρ')⟩⟩

end Cert.Proof

end
